-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel

variable [Facts]

def fn {F : FTy → Type} [FloatOps F] (main_arg0 : FVec F S8x2048x768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  main_v3
-- ==== Kernel.lean ====
abbrev S8x2048x768 : Shape := ⟨3, ![8, 2048, 768]⟩
abbrev S16384x768 : Shape := ⟨2, ![16384, 768]⟩
abbrev S768x768 : Shape := ⟨2, ![768, 768]⟩
abbrev S2048x384 : Shape := ⟨2, ![2048, 384]⟩
abbrev S2048x768 : Shape := ⟨2, ![2048, 768]⟩
abbrev S384x768 : Shape := ⟨2, ![384, 768]⟩
abbrev S384x2048 : Shape := ⟨2, ![384, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8x2048x768, .f32⟩
  | .hbm, ⟨1, _⟩ => ⟨S16384x768, .f32⟩
  | .hbm, ⟨2, _⟩ => ⟨S768x768, .f32⟩
  | .local _ .vmem, ⟨0, _⟩ => ⟨S2048x384, .f32⟩
  | .local _ .vmem, ⟨1, _⟩ => ⟨S2048x384, .f32⟩
  | .local _ .vmem, ⟨2, _⟩ => ⟨S2048x768, .f32⟩
  | .local _ .vmem, ⟨3, _⟩ => ⟨S2048x768, .f32⟩
  | .local _ .vmem, ⟨4, _⟩ => ⟨S384x768, .f32⟩
  | .local _ .vmem, ⟨5, _⟩ => ⟨S384x768, .f32⟩
  | .local _ .vmem, ⟨6, _⟩ => ⟨S384x768, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S384x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x2048x768_S16384x768 : S8x2048x768.ShapeCasts S16384x768
  inb_S384x768_S384x768_0_0 : ∀ a, (![0, 0] : Fin 2 → Nat) a + S384x768.size a ≤ S384x768.size a
  h_S384x768 : 0 < S384x768.numel
  shapeCasts_S384x768_S384x768 : S384x768.ShapeCasts S384x768
  inb_S2048x384_S2048x384_0_0 : ∀ a, (![0, 0] : Fin 2 → Nat) a + S2048x384.size a ≤ S2048x384.size a
  h_S2048x384 : 0 < S2048x384.numel
  shapeCasts_S2048x384_S2048x384 : S2048x384.ShapeCasts S2048x384
  bitsLt_bf16_f32 : FTy.bits .bf16 < FTy.bits .f32
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  transposes_S2048x384_p1_0_S384x2048 : S2048x384.Transposes [1, 0] S384x2048
  dot_S384x2048_S2048x768_S384x768_1_0_0_1_n_n_wf : DotDims.WF S384x2048 S2048x768 S384x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x384.size a ≤ S16384x768.size a
  hwx0_0 : ∀ i : grid0.Coords, EltTy.bits .f32 = 32 ∨ (Rect.block (s := S16384x768) S2048x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x768.size a ≤ S16384x768.size a
  hwx0_1 : ∀ i : grid0.Coords, EltTy.bits .f32 = 32 ∨ (Rect.block (s := S16384x768) S2048x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S384x768.size a ≤ S768x768.size a
  hwx0_2 : ∀ i : grid0.Coords, EltTy.bits .f32 = 32 ∨ (Rect.block (s := S768x768) S384x768.size (cc0_transform_2 i) (hinb0_2 i)).WholeWords (EltTy.packing .f32)

variable [Facts₀]

def dot_S384x2048_S2048x768_S384x768_1_0_0_1_n_n : DotDims S384x2048 S2048x768 S384x768 where
  lhsContracting := [1]
  rhsContracting := [0]
  lhsNonContracting := [0]
  rhsNonContracting := [1]
  lhsBatch := []
  rhsBatch := []
  wf := dot_S384x2048_S2048x768_S384x768_1_0_0_1_n_n_wf

abbrev win0_0 : Pipeline.Window sig grid0 :=
  Pipeline.Window.ofSpec (Memref.whole main_v0) S2048x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S384x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x2048x768 : Shape := ⟨3, ![8, 2048, 768]⟩
abbrev S16384x768 : Shape := ⟨2, ![16384, 768]⟩
abbrev S768x768 : Shape := ⟨2, ![768, 768]⟩
abbrev S_ : Shape := ⟨0, ![]⟩
abbrev S768 : Shape := ⟨1, ![768]⟩
abbrev S768x1 : Shape := ⟨2, ![768, 1]⟩

abbrev nBuf : Space → Nat
  | .hbm => 36
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S16384x768, .f32⟩
  | .hbm, ⟨2, _⟩ => ⟨S768x768, .f32⟩
  | .hbm, ⟨3, _⟩ => ⟨S_, .f32⟩
  | .hbm, ⟨4, _⟩ => ⟨S768x768, .f32⟩
  | .hbm, ⟨5, _⟩ => ⟨S768x768, .f32⟩
  | .hbm, ⟨6, _⟩ => ⟨S16384x768, .f32⟩
  | .hbm, ⟨7, _⟩ => ⟨S_, .f32⟩
  | .hbm, ⟨8, _⟩ => ⟨S768, .f32⟩
  | .hbm, ⟨9, _⟩ => ⟨S_, .f32⟩
  | .hbm, ⟨10, _⟩ => ⟨S768, .f32⟩
  | .hbm, ⟨11, _⟩ => ⟨S768, .f32⟩
  | .hbm, ⟨12, _⟩ => ⟨S_, .f32⟩
  | .hbm, ⟨13, _⟩ => ⟨S768, .f32⟩
  | .hbm, ⟨14, _⟩ => ⟨S768x768, .i32⟩
  | .hbm, ⟨15, _⟩ => ⟨S768x768, .i32⟩
  | .hbm, ⟨16, _⟩ => ⟨S_, .i32⟩
  | .hbm, ⟨17, _⟩ => ⟨S768x768, .i32⟩
  | .hbm, ⟨18, _⟩ => ⟨S768x768, .i32⟩
  | .hbm, ⟨19, _⟩ => ⟨S768x768, .i1⟩
  | .hbm, ⟨20, _⟩ => ⟨S768x1, .f32⟩
  | .hbm, ⟨21, _⟩ => ⟨S_, .f32⟩
  | .hbm, ⟨22, _⟩ => ⟨S768x768, .f32⟩
  | .hbm, ⟨23, _⟩ => ⟨S768x768, .f32⟩
  | .hbm, ⟨24, _⟩ => ⟨S768x768, .f32⟩
  | .hbm, ⟨25, _⟩ => ⟨S768x768, .f32⟩
  | .hbm, ⟨26, _⟩ => ⟨S_, .f32⟩
  | .hbm, ⟨27, _⟩ => ⟨S768x768, .f32⟩
  | .hbm, ⟨28, _⟩ => ⟨S768x768, .f32⟩
  | .hbm, ⟨29, _⟩ => ⟨S_, .f32⟩
  | .hbm, ⟨30, _⟩ => ⟨S768x768, .f32⟩
  | .hbm, ⟨31, _⟩ => ⟨S768x768, .f32⟩
  | .hbm, ⟨32, _⟩ => ⟨S_, .f32⟩
  | .hbm, ⟨33, _⟩ => ⟨S768x768, .f32⟩
  | .hbm, ⟨34, _⟩ => ⟨S768x768, .f32⟩
  | .hbm, ⟨35, _⟩ => ⟨S768x768, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_c : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_cst_0 : Ref sig .tc := ⟨.hbm, 21, rfl⟩
abbrev main_call0_call0_v0 : Ref sig .tc := ⟨.hbm, 22, rfl⟩
abbrev main_call0_call0_v1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_cst_4 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩

abbrev nD : Nat := 1
abbrev τ : Topo := Topo.v7x

variable {F : FTy → Type} [FloatOps F]

class Facts₀ : Prop where
  shapeCasts_S8x2048x768_S16384x768 : S8x2048x768.ShapeCasts S16384x768
  bcast_S_S768x768 : S_.BroadcastsInDim S768x768 (![] : Fin 0 → Fin S768x768.rank)
  reducesTo_S16384x768_S768_d0 : S16384x768.ReducesTo [0] S768
  h_S_ : 0 < S_.numel
  bcast_S_S768 : S_.BroadcastsInDim S768 (![] : Fin 0 → Fin S768.rank)
  pads_S768_S768_000 : S768.Pads (![0] : Fin 1 → Nat) ![0] ![0] S768
  bcast_S768_S768x1_0 : S768.BroadcastsInDim S768x1 (![0] : Fin 1 → Fin S768x1.rank)
  bcast_S768x1_S768x768_0_1 : S768x1.BroadcastsInDim S768x768 (![0, 1] : Fin 2 → Fin S768x768.rank)
  dot_S16384x768_S16384x768_S768x768_0_0_1_1_n_n_wf : DotDims.WF S16384x768 S16384x768 S768x768 [0] [0] [1] [1] [] []

variable [Facts₀]

def dot_S16384x768_S16384x768_S768x768_0_0_1_1_n_n : DotDims S16384x768 S16384x768 S768x768 where
  lhsContracting := [0]
  rhsContracting := [0]
  lhsNonContracting := [1]
  rhsNonContracting := [1]
  lhsBatch := []
  rhsBatch := []
  wf := dot_S16384x768_S16384x768_S768x768_0_0_1_1_n_n_wf

class Facts : Prop extends Facts₀ where

variable [Facts]
-- ==== Proof.K.Data.lean ====
/-
  The Gram kernel's proof data, for every float instance.

  The grid has 2 × 8 points, point t = 8·i + k. Window 0 hands the body the 2048 × 384 block (k, i) of the
  16384 × 768 row matrix, window 1 the 2048 × 768 block (k, 0) of the SAME matrix, window 2 is the 384 × 768 block
  (i, 0) of the result. The body keeps a 384 × 768 accumulator in scratch: at k = 0 it is reset to zero, at every
  point the product (left block)ᵀ · (right block) is added to it, and at k = 7 the result block is written from it
  (halved after scaling by 2⁻¹⁴, less one half). `accAt` is the accumulator after each point, by recursion on
  the point; `outAt` what the body then leaves in the result's staging buffer.
-/
import proofs.«140051_j67310727463545_1_alg».proof.Proof.Gen.Kernel.Launch
import proofs.«140051_j67310727463545_1_alg».proof.Proof.Gen.Kernel.Skeleton
import proofs.«140051_j67310727463545_1_alg».proof.Proof.Gen.Kernel.Points
import Idealize.ShloMosaic.Lib.Pipeline.FrameBody
import Idealize.ShloMosaic.Lib.Pipeline.Frame

noncomputable section

namespace Cert.Kernel.Gram

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffers when the region is entered: the launch contents after the one host operation before it (the
    input read as a matrix of rows). -/
abbrev V0 (c : Dev nD) : Valuation τ sig (Elt F) := StableHlo.after hostOps0 (fun b => m (c, b))
/-- The same at a TensorCore reference. -/
abbrev V (c : Dev nD) (b : Ref sig .tc) : Buf (Elt F) ((c : Thread nD τ).loc b) := V0 m c (Proc.devRef .tc b)

/-- The host operation writes the row matrix only: the argument is as launched. -/
theorem V_main_arg0 (c : Dev nD) : V m c main_arg0 = m ((c : Thread nD τ).loc main_arg0) := rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left operand's block at a point: 2048 rows of 384 columns. -/
abbrev lblk (c : Dev nD) (t : Fin cfg0.N) : Vec F S2048x384 .f32 := iblk m c 0 t
/-- The right operand's block at a point: 2048 rows of all 768 columns. -/
abbrev rblk (c : Dev nD) (t : Fin cfg0.N) : Vec F S2048x768 .f32 := iblk m c 1 t

/-! ## The accumulator, point by point -/

/-- The scratch accumulator after the body at position `n`: the point's product added to zero at the first point
    of each row of the grid (n ≡ 0 mod 8), else to what the point before left. -/
def accAt (c : Dev nD) : (n : ℕ) → n < cfg0.N → Vec F S384x768 .f32
  | 0, hn => k0_pay2 (lblk m c ⟨0, hn⟩) (rblk m c ⟨0, hn⟩) (k0_pay1 (F := F))
  | n + 1, hn =>
    if (n + 1) % 8 = 0 then k0_pay2 (lblk m c ⟨n + 1, hn⟩) (rblk m c ⟨n + 1, hn⟩) (k0_pay1 (F := F))
    else k0_pay2 (lblk m c ⟨n + 1, hn⟩) (rblk m c ⟨n + 1, hn⟩) (accAt c n (Nat.lt_of_succ_lt hn))

/-- At the first point of a grid row the accumulator is the point's product alone. -/
theorem accAt_reset (c : Dev nD) (t : Fin cfg0.N) (h : t.val % 8 = 0) :
    accAt m c t.val t.isLt = k0_pay2 (lblk m c t) (rblk m c t) (k0_pay1 (F := F)) := by
  obtain ⟨n, hn⟩ := t
  cases n with
  | zero => rfl
  | succ n => exact (if_pos h).trans rfl

/-- At any other point it is the point's product added to what the point before left. -/
theorem accAt_step (c : Dev nD) (t : Fin cfg0.N) (h : ¬ t.val % 8 = 0) :
    accAt m c t.val t.isLt
      = k0_pay2 (lblk m c t) (rblk m c t) (accAt m c (t.val - 1) (Nat.lt_of_le_of_lt (Nat.sub_le _ _) t.isLt)) := by
  obtain ⟨n, hn⟩ := t
  cases n with
  | zero => exact absurd (Nat.zero_mod _) h
  | succ n => exact (if_neg h).trans rfl

/-- What the body leaves in the result's staging buffer at a point that stores it: the accumulator scaled. -/
def outAt (c : Dev nD) (t : Fin cfg0.N) : Vec F S384x768 .f32 := k0_pay3 (accAt m c t.val t.isLt)

/-! ## The region invariant -/

/-- The scratch accumulator as a memref. -/
abbrev scM : Memref sig .tc .vmem S384x768 .f32 := Memref.whole cc0_scratch0

/-- Before position `n`: the scratch at anything before the first point, afterwards at the accumulator the point
    before left. -/
def PhiS (c : Dev nD) : (n : ℕ) → n ≤ cfg0.N → sProp 𝕄
  | 0, _ => iprop(∃ d, owns (c : Thread nD τ) scM fullShare d)
  | n + 1, hn => owns (c : Thread nD τ) scM fullShare (accAt m c n hn)

theorem PhiS_zero (c : Dev nD) (n : ℕ) (h : n ≤ cfg0.N) (hz : n = 0) :
    PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare (accAt m c n hn) := rfl

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- One half of the row matrix for each of the two windows that read it. -/
abbrev halfL : PosShare TreeShare := fullShare.left
abbrev halfR : PosShare TreeShare := fullShare.right

/-- The pipeline's proof data on core `c`: the arrays as the region finds them; each operand window's buffer left at
    its block, the result window's at `outAt`; the invariant `PhiS`; the row matrix shared in halves between the two
    operand windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q w := match w with
    | ⟨0, _⟩ => halfL
    | ⟨1, _⟩ => halfR
    | ⟨2, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt m c t := by dsimp only [dats]

end Cert.Kernel.Gram

end
-- ==== Proof.K.Body.lean ====
/-
  The Gram kernel's body at every grid point, for every float instance.

  The body branches twice on the reduction coordinate k (point t = 8·i + k): at k = 0 it first stores zero into the
  scratch accumulator; it always loads the two operand blocks and the accumulator and stores the accumulator plus
  (left block)ᵀ·(right block); at k = 7 it then loads the accumulator and stores its scaled form into the result's
  staging buffer. So there are three cases of a point — first of a row (reset), middle, last of a row — and in each the
  body runs from the operand blocks, the accumulator the point before left (anything, at a reset) and the result buffer
  to the same blocks, the accumulator `accAt` of this point, and the result buffer untouched (handed back as found) or,
  at the last point of a row, at `outAt`.
-/
import proofs.«140051_j67310727463545_1_alg».proof.Proof.K.Data
import Idealize.ShloMosaic.Lib.Tactic
import Idealize.ShloMosaic.Lib.Ring
import Idealize.ShloMosaic.Lib.Pipeline.Value

set_option maxRecDepth 16384

noncomputable section

namespace Cert.Kernel.Gram

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The two branch conditions over the grid -/

/-- "This is the first point of a grid row": the reduction coordinate is 0. -/
abbrev isFirst (i : grid0.Coords) : Prop :=
  (Scalar.cmpi .ne (Scalar.extui (Scalar.cmpi .eq (BitVec.ofNat 32 (i 1).val) 0#32)) 0#32) = 1#1
/-- "This is the last point of a grid row": the reduction coordinate is 7. -/
abbrev isLast (i : grid0.Coords) : Prop := k0_cond2 i = 1#1

theorem isFirst_iff : ∀ t : Fin cfg0.N, isFirst (grid0.coords t) ↔ t.val % 8 = 0 :=
  (by decide +kernel : ∀ t : Fin grid0.N, isFirst (grid0.coords t) ↔ t.val % 8 = 0)
theorem isLast_iff : ∀ t : Fin cfg0.N, isLast (grid0.coords t) ↔ t.val % 8 = 7 :=
  (by decide +kernel : ∀ t : Fin grid0.N, isLast (grid0.coords t) ↔ t.val % 8 = 7)

/-- The operand windows are never idle. -/
theorem live_0 : ∀ t : Fin cfg0.N, cfg0.idle 0 (grid0.coords t) = false := by decide +kernel
theorem live_1 : ∀ t : Fin cfg0.N, cfg0.idle 1 (grid0.coords t) = false := by decide +kernel
/-- The result window is idle, and not written back, except at the last point of a row. -/
theorem idle_2 : ∀ t : Fin cfg0.N, ¬ isLast (grid0.coords t) → cfg0.idle 2 (grid0.coords t) = true := by decide +kernel
theorem noFlush_2 : ∀ t : Fin cfg0.N, ¬ isLast (grid0.coords t) → (cfg0.win 2).flush t = false := by decide +kernel
theorem live_2 : ∀ t : Fin cfg0.N, isLast (grid0.coords t) → cfg0.idle 2 (grid0.coords t) = false := by decide +kernel

/-! ## The staging memrefs at a point, and what the operand windows hold there -/

abbrev msL (t : Fin cfg0.N) : Memref sig .tc .vmem S2048x384 .f32 := win0_0.stage (cfg0.slots t 0)
abbrev hsL (t : Fin cfg0.N) : (msL t).IsWhole := hstage0_0 ((cfg0.slots t 0).cast nbuf0_0)
abbrev msR (t : Fin cfg0.N) : Memref sig .tc .vmem S2048x768 .f32 := win0_1.stage (cfg0.slots t 1)
abbrev hsR (t : Fin cfg0.N) : (msR t).IsWhole := hstage0_1 ((cfg0.slots t 1).cast nbuf0_1)
abbrev msO (t : Fin cfg0.N) : Memref sig .tc .vmem S384x768 .f32 := win0_2.stage (cfg0.slots t 2)
abbrev hsO (t : Fin cfg0.N) : (msO t).IsWhole := hstage0_2 ((cfg0.slots t 2).cast nbuf0_2)

/-- Both operand windows are fetched at every point, so each holds its block when the body runs. -/
theorem before_0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)
theorem before_1 (c : Dev nD) (t : Fin cfg0.N) (d) : (dats m 0 c).before 1 t d = iblk m c 1 t :=
  ((dats m 0 c).before_fetched 1 t (fetch0_1 t) d).trans (by unfold Dat.fetched Dat.blockOf iblk; rw [A_eq]; try rfl)

/-! ## The three cases of the body, on any whole memrefs -/

/-- Zero offsets, however spelt. -/
theorem zero2 : (![0, 0] : Fin 2 → ℕ) = fun _ => 0 := by
  funext a; match a with | ⟨0, _⟩ => rfl | ⟨1, _⟩ => rfl

set_option maxHeartbeats 1000000 in
/-- A middle point: the accumulator `s` becomes `s` plus the blocks' product; nothing else changes. -/
theorem run_mid (c : Dev nD) (i : grid0.Coords) (a2 : Memref sig .tc .vmem S2048x384 .f32) (h2 : a2.IsWhole)
    (a3 : Memref sig .tc .vmem S2048x768 .f32) (h3 : a3.IsWhole) (a4 : Memref sig .tc .vmem S384x768 .f32) (h4 : a4.IsWhole)
    (a5 : Memref sig .tc .vmem S384x768 .f32) (h5 : a5.IsWhole) (hc1 : ¬ isFirst i) (hc2 : ¬ isLast i)
    (x0 : Vec F S2048x384 .f32) (x1 : Vec F S2048x768 .f32) (xo : Vec F S384x768 .f32) (s : Vec F S384x768 .f32)
    (E : Set ℕ) (K : PUnit → sProp 𝕄) :
    iprop(owns (c : Thread nD τ) a2 fullShare x0 ∗ owns (c : Thread nD τ) a3 fullShare x1 ∗ owns (c : Thread nD τ) a4 fullShare xo
        ∗ owns (c : Thread nD τ) a5 fullShare s
        ∗ (iprop(owns (c : Thread nD τ) a2 fullShare x0 ∗ owns (c : Thread nD τ) a3 fullShare x1 ∗ owns (c : Thread nD τ) a4 fullShare xo
            ∗ owns (c : Thread nD τ) a5 fullShare (k0_pay2 x0 x1 s)) -∗ K ⟨⟩))
      ⊢ wp frame (wpE (defs₀ (F := F)) Variants.none c none) E (cc0__gram_kernel i a2 h2 a3 h3 a4 h4 a5 h5) K := by
  simp only [cc0__gram_kernel_eq_skeleton]; unfold cc0__gram_kernel_skel
  unfold owns
  iintro ⟨⟨%f0, %hf0, H0⟩, ⟨%f1, %hf1, H1⟩, ⟨%fo, %hfo, Ho⟩, ⟨%fs, %hfs, HS⟩, Hk⟩
  obtain rfl := h2.eq_unread hf0; obtain rfl := h3.eq_unread hf1; obtain rfl := h5.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [Ho]
  · iexists _; isplitr; · ipureintro; exact hfo
    iexact Ho
  iexists _; isplitr
  swap; · iexact HS
  ipureintro
  sl_unfold_words
  rw [View.read_writes_eq_canon _ _ _ (fun y => ⟨_, List.mem_cons_self, View.mem_set_unit_zero zero2 inb_S384x768_S384x768_0_0 y⟩),
    View.canon_cons_unit_zero zero2]
  simp only [View.readAt_eq_ld, hf0, hf1, hfs, View.ld_unit_zero (S := S2048x384) zero2, View.ld_unit_zero (S := S2048x768) zero2,
    View.ld_unit_zero (S := S384x768) zero2, View.readCov_unit_zero (S := S384x768) _ zero2]

set_option maxHeartbeats 1000000 in
/-- The first point of a row: the accumulator, whatever it held, becomes zero plus the blocks' product. -/
theorem run_first (c : Dev nD) (i : grid0.Coords) (a2 : Memref sig .tc .vmem S2048x384 .f32) (h2 : a2.IsWhole)
    (a3 : Memref sig .tc .vmem S2048x768 .f32) (h3 : a3.IsWhole) (a4 : Memref sig .tc .vmem S384x768 .f32) (h4 : a4.IsWhole)
    (a5 : Memref sig .tc .vmem S384x768 .f32) (h5 : a5.IsWhole) (hc1 : isFirst i) (hc2 : ¬ isLast i)
    (x0 : Vec F S2048x384 .f32) (x1 : Vec F S2048x768 .f32) (xo : Vec F S384x768 .f32)
    (E : Set ℕ) (K : PUnit → sProp 𝕄) :
    iprop(owns (c : Thread nD τ) a2 fullShare x0 ∗ owns (c : Thread nD τ) a3 fullShare x1 ∗ owns (c : Thread nD τ) a4 fullShare xo
        ∗ (∃ d, owns (c : Thread nD τ) a5 fullShare d)
        ∗ (iprop(owns (c : Thread nD τ) a2 fullShare x0 ∗ owns (c : Thread nD τ) a3 fullShare x1 ∗ owns (c : Thread nD τ) a4 fullShare xo
            ∗ owns (c : Thread nD τ) a5 fullShare (k0_pay2 x0 x1 (k0_pay1 (F := F)))) -∗ K ⟨⟩))
      ⊢ wp frame (wpE (defs₀ (F := F)) Variants.none c none) E (cc0__gram_kernel i a2 h2 a3 h3 a4 h4 a5 h5) K := by
  simp only [cc0__gram_kernel_eq_skeleton]; unfold cc0__gram_kernel_skel
  unfold owns
  iintro ⟨⟨%f0, %hf0, H0⟩, ⟨%f1, %hf1, H1⟩, ⟨%fo, %hfo, Ho⟩, ⟨%ds, %fs, -, HS⟩, Hk⟩
  obtain rfl := h2.eq_unread hf0; obtain rfl := h3.eq_unread hf1
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [Ho]
  · iexists _; isplitr; · ipureintro; exact hfo
    iexact Ho
  iexists _; isplitr
  swap; · iexact HS
  ipureintro
  sl_unfold_words
  rw [View.read_writes_eq_canon _ _ _ (fun y => ⟨_, List.mem_cons_self, View.mem_set_unit_zero zero2 inb_S384x768_S384x768_0_0 y⟩),
    View.canon_cons_unit_zero zero2]
  simp only [View.readAt_eq_ld, hf0, hf1, View.ld_unit_zero (S := S2048x384) zero2, View.ld_unit_zero (S := S2048x768) zero2,
    View.ld_unit_zero (S := S384x768) zero2, View.readCov_unit_zero (S := S384x768) _ zero2]

set_option maxHeartbeats 1000000 in
/-- The last point of a row: the accumulator `s` becomes `s` plus the blocks' product, and the result buffer, whatever it
    held, the scaled form of that. -/
theorem run_last (c : Dev nD) (i : grid0.Coords) (a2 : Memref sig .tc .vmem S2048x384 .f32) (h2 : a2.IsWhole)
    (a3 : Memref sig .tc .vmem S2048x768 .f32) (h3 : a3.IsWhole) (a4 : Memref sig .tc .vmem S384x768 .f32) (h4 : a4.IsWhole)
    (a5 : Memref sig .tc .vmem S384x768 .f32) (h5 : a5.IsWhole) (hc1 : ¬ isFirst i) (hc2 : isLast i)
    (x0 : Vec F S2048x384 .f32) (x1 : Vec F S2048x768 .f32) (s : Vec F S384x768 .f32)
    (E : Set ℕ) (K : PUnit → sProp 𝕄) :
    iprop(owns (c : Thread nD τ) a2 fullShare x0 ∗ owns (c : Thread nD τ) a3 fullShare x1 ∗ (∃ d, owns (c : Thread nD τ) a4 fullShare d)
        ∗ owns (c : Thread nD τ) a5 fullShare s
        ∗ (iprop(owns (c : Thread nD τ) a2 fullShare x0 ∗ owns (c : Thread nD τ) a3 fullShare x1
            ∗ owns (c : Thread nD τ) a4 fullShare (k0_pay3 (k0_pay2 x0 x1 s))
            ∗ owns (c : Thread nD τ) a5 fullShare (k0_pay2 x0 x1 s)) -∗ K ⟨⟩))
      ⊢ wp frame (wpE (defs₀ (F := F)) Variants.none c none) E (cc0__gram_kernel i a2 h2 a3 h3 a4 h4 a5 h5) K := by
  simp only [cc0__gram_kernel_eq_skeleton]; unfold cc0__gram_kernel_skel
  unfold owns
  iintro ⟨⟨%f0, %hf0, H0⟩, ⟨%f1, %hf1, H1⟩, ⟨%dO, %fo, -, Ho⟩, ⟨%fs, %hfs, HS⟩, Hk⟩
  obtain rfl := h2.eq_unread hf0; obtain rfl := h3.eq_unread hf1; obtain rfl := h5.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [Ho]
  · iexists _; isplitr
    swap; · iexact Ho
    ipureintro
    sl_unfold_words
    rw [View.read_writes_eq_canon _ _ _ (fun y => ⟨_, List.mem_cons_self, View.mem_set_unit_zero zero2 inb_S384x768_S384x768_0_0 y⟩),
      View.canon_cons_unit_zero zero2]
    simp only [View.readAt_eq_ld, hf0, hf1, hfs, View.ld_unit_zero (S := S2048x384) zero2, View.ld_unit_zero (S := S2048x768) zero2,
      View.ld_unit_zero (S := S384x768) zero2, View.readCov_unit_zero (S := S384x768) _ zero2]
  iexists _; isplitr
  swap; · iexact HS
  ipureintro
  sl_unfold_words
  rw [View.read_writes_eq_canon _ _ _ (fun y => ⟨_, List.mem_cons_self, View.mem_set_unit_zero zero2 inb_S384x768_S384x768_0_0 y⟩),
    View.canon_cons_unit_zero zero2]
  simp only [View.readAt_eq_ld, hf0, hf1, hfs, View.ld_unit_zero (S := S2048x384) zero2, View.ld_unit_zero (S := S2048x768) zero2,
    View.ld_unit_zero (S := S384x768) zero2, View.readCov_unit_zero (S := S384x768) _ zero2]

/-! ## The body at any point, and the obligation -/

set_option maxHeartbeats 4000000 in
/-- At any point the operand buffers hold their blocks; the point's residue mod 8 says which case it is; the invariant
    hands the body the accumulator the point before left (anything at the very first point) and takes this point's back;
    the result buffer goes back as found except at the last point of a row, where it holds the scaled accumulator. -/
theorem sound_body (c : Dev nD) (t : Fin cfg0.N) :
    iprop((dats m 0 c).Φ t.castSucc ∗ (dats m 0 c).owesAt () t.castSucc
        ∗ (∃ d, owns (c : Thread nD τ) (msL t) fullShare ((dats m 0 c).before 0 t d))
        ∗ (∃ d, owns (c : Thread nD τ) (msR t) fullShare ((dats m 0 c).before 1 t d))
        ∗ (∃ d, owns (c : Thread nD τ) (msO t) fullShare ((dats m 0 c).before 2 t d)))
      ⊢ wp frame (wpE (defs₀ (F := F)) Variants.none c none) Set.univ (bodyAt0 t) (fun _ =>
          iprop((dats m 0 c).Φ t.succ ∗ (dats m 0 c).owesAt () t.succ
            ∗ (dats m 0 c).leavesExact 0 t ∗ (dats m 0 c).leavesExact 1 t ∗ (dats m 0 c).leavesExact 2 t)) := by
  unfold bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (msL t) fullShare ((dats m 0 c).after 0 t) from by
      unfold Dat.leavesExact; rw [live_0 t], after_0]
  rw [show (dats m 0 c).leavesExact 1 t = owns (c : Thread nD τ) (msR t) fullShare ((dats m 0 c).after 1 t) from by
      unfold Dat.leavesExact; rw [live_1 t], after_1]
  have hN : t.val < 16 := lt_of_lt_of_eq t.isLt (show cfg0.N = 16 from N_0)
  by_cases h7 : t.val % 8 = 7
  · have h0 : ¬ t.val % 8 = 0 := by omega
    have hz : t.val ≠ 0 := by omega
    rw [show (dats m 0 c).leavesExact 2 t = owns (c : Thread nD τ) (msO t) fullShare ((dats m 0 c).after 2 t) from by
      unfold Dat.leavesExact; rw [live_2 t ((isLast_iff t).mpr h7)], after_2]
    unfold outAt
    rw [accAt_step m c t h0, Phi_castSucc m c t, PhiS_pos m c _ _ hz]
    iintro ⟨HS, Ho, ⟨%d0, H0⟩, ⟨%d1, H1⟩, ⟨%d2, H2⟩⟩
    iapply (run_last c (grid0.coords t) _ _ _ _ _ _ _ _ (fun h => h0 ((isFirst_iff t).mp h)) ((isLast_iff t).mpr h7) (lblk m c t) (rblk m c t) _ Set.univ _)
    isplitl [H0]; · iexact H0
    isplitl [H1]; · iexact H1
    isplitl [H2]; · iexists _; iexact H2
    isplitl [HS]; · iexact HS
    iintro ⟨H0, H1, H2, HS⟩
    isplitl [HS]; · iexact HS
    isplitl [Ho]; · iexact Ho
    isplitl [H0]; · iexact H0
    isplitl [H1]; · iexact H1
    iexact H2
  · rw [Dat.leavesExact_idle (dats m 0 c) 2 t (idle_2 t (fun h => h7 ((isLast_iff t).mp h))) (noFlush_2 t (fun h => h7 ((isLast_iff t).mp h)))]
    by_cases h0 : t.val % 8 = 0
    · rw [accAt_reset m c t h0]
      by_cases hz : t.val = 0
      · rw [Phi_castSucc m c t, PhiS_zero m c _ _ hz]
        iintro ⟨HS, Ho, ⟨%d0, H0⟩, ⟨%d1, H1⟩, ⟨%d2, H2⟩⟩
        iapply (run_first c (grid0.coords t) _ _ _ _ _ _ _ _ ((isFirst_iff t).mpr h0) (fun h => h7 ((isLast_iff t).mp h)) (lblk m c t) (rblk m c t) _ Set.univ _)
        isplitl [H0]; · iexact H0
        isplitl [H1]; · iexact H1
        isplitl [H2]; · iexact H2
        isplitl [HS]; · iexact HS
        iintro ⟨H0, H1, H2, HS⟩
        isplitl [HS]; · iexact HS
        isplitl [Ho]; · iexact Ho
        isplitl [H0]; · iexact H0
        isplitl [H1]; · iexact H1
        iexists _; iexact H2
      · rw [Phi_castSucc m c t, PhiS_pos m c _ _ hz]
        iintro ⟨HS, Ho, ⟨%d0, H0⟩, ⟨%d1, H1⟩, ⟨%d2, H2⟩⟩
        iapply (run_first c (grid0.coords t) _ _ _ _ _ _ _ _ ((isFirst_iff t).mpr h0) (fun h => h7 ((isLast_iff t).mp h)) (lblk m c t) (rblk m c t) _ Set.univ _)
        isplitl [H0]; · iexact H0
        isplitl [H1]; · iexact H1
        isplitl [H2]; · iexact H2
        isplitl [HS]; · iexists _; iexact HS
        iintro ⟨H0, H1, H2, HS⟩
        isplitl [HS]; · iexact HS
        isplitl [Ho]; · iexact Ho
        isplitl [H0]; · iexact H0
        isplitl [H1]; · iexact H1
        iexists _; iexact H2
    · have hz : t.val ≠ 0 := fun h => h0 (by rw [h])
      rw [accAt_step m c t h0, Phi_castSucc m c t, PhiS_pos m c _ _ hz]
      iintro ⟨HS, Ho, ⟨%d0, H0⟩, ⟨%d1, H1⟩, ⟨%d2, H2⟩⟩
      iapply (run_mid c (grid0.coords t) _ _ _ _ _ _ _ _ (fun h => h0 ((isFirst_iff t).mp h)) (fun h => h7 ((isLast_iff t).mp h)) (lblk m c t) (rblk m c t) _ _ Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Gram

end
-- ==== Proof.K.Launch.lean ====
/-
  The Gram kernel's launch, for every float instance.

  The program is one reshape of the argument into the 16384 × 768 row matrix, then one grid loop whose two operand
  windows read that SAME matrix and whose third window writes the result. At the loop's entry the row matrix is held
  at the full share; that share is split in two half shares, one for each operand window, each half share still
  naming the whole matrix's contents (a points-to splits along its share, not along its elements), the result array
  going at the full share to the output window. The scratch accumulator enters at anything and leaves at the last point's
  accumulator; the argument, which the loop never touches, is read back unchanged at the end.
-/
import proofs.«140051_j67310727463545_1_alg».proof.Proof.K.Data
import Idealize.ShloMosaic.Lib.Pipeline.Launch
import Idealize.ShloMosaic.Lib.Pipeline.Frame

noncomputable section

namespace Cert.Kernel.Gram

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays at entry -/

/-- The distinct buffers behind the three windows' arrays are two: the row matrix and the result, each whole. -/
theorem arrBufs_eq (c : Dev nD) :
    (Pipeline.arrBufs (Ix := Unit) (Name := ℕ) (U := UR sig nD τ) (Lvl := ℕ) cfg0.spec c (V m c) : sProp 𝕄)
      = iprop((((c : Thread nD τ).loc main_v0) ↦{fullShare} V m c main_v0) ∗ (((c : Thread nD τ).loc main_v1) ↦{fullShare} V m c main_v1)) :=
  bigSep_eq_bigSepL_of_eq [main_v0, main_v1] (by decide) (by decide) _

/-- A window's array at entry: a whole buffer, so all of its elements, at the window's share and the entry contents. -/
theorem arr_entry (c : Dev nD) (w : Fin 3) :
    (((cfg0.win w).arr.view.loc (c : Thread nD τ)) ↦[(cfg0.win w).arr.view.set]{(dats m 0 c).share w} ((dats m 0 c).arrAt w 0) : sProp 𝕄)
      = (((c : Thread nD τ).loc (Pipeline.arrRef spec0 w)) ↦{(dats m 0 c).share w} V m c (Pipeline.arrRef spec0 w)) := by
  rw [(arr_whole0 w).set_eq_univ]
  rfl

/-- The left operand's window holds the whole row matrix at one half of the full share, -/
theorem arr_entry_0 (c : Dev nD) :
    (((cfg0.win (0 : Fin 3)).arr.view.loc (c : Thread nD τ)) ↦[(cfg0.win (0 : Fin 3)).arr.view.set]{(dats m 0 c).share (0 : Fin 3)} ((dats m 0 c).arrAt (0 : Fin 3) 0) : sProp 𝕄)
      = (((c : Thread nD τ).loc main_v0) ↦{halfL} V m c main_v0) := arr_entry m c 0
/-- the right operand's window the same contents at the other half of the share, -/
theorem arr_entry_1 (c : Dev nD) :
    (((cfg0.win (1 : Fin 3)).arr.view.loc (c : Thread nD τ)) ↦[(cfg0.win (1 : Fin 3)).arr.view.set]{(dats m 0 c).share (1 : Fin 3)} ((dats m 0 c).arrAt (1 : Fin 3) 0) : sProp 𝕄)
      = (((c : Thread nD τ).loc main_v0) ↦{halfR} V m c main_v0) := arr_entry m c 1
/-- and the result's window the result array at the full share. -/
theorem arr_entry_2 (c : Dev nD) :
    (((cfg0.win (2 : Fin 3)).arr.view.loc (c : Thread nD τ)) ↦[(cfg0.win (2 : Fin 3)).arr.view.set]{(dats m 0 c).share (2 : Fin 3)} ((dats m 0 c).arrAt (2 : Fin 3) 0) : sProp 𝕄)
      = (((c : Thread nD τ).loc main_v1) ↦{fullShare} V m c main_v1) := arr_entry m c 2

/-- The two buffers held whole make the three windows' arrays at entry: the row matrix's full share is the sum of
    its two half shares, one for each operand window, both at the same contents; the result array goes to its window
    as it is. -/
theorem arrays_entry (c : Dev nD) :
    (Pipeline.arrBufs (Ix := Unit) (Name := ℕ) (U := UR sig nD τ) (Lvl := ℕ) cfg0.spec c (V m c) : sProp 𝕄)
      ⊢ (dats m 0 c).arrays ((dats m 0 c).arrAt · 0) := by
  rw [arrBufs_eq]
  unfold Dat.arrays
  rw [bigSep_W0, arr_entry_0, arr_entry_1, arr_entry_2]
  iintro ⟨H0, H1⟩
  ihave H0 := (pointsTo_share (PosShare.mem_left_op_right fullShare)).1 $$ H0
  icases H0 with ⟨Ha, Hb⟩
  isplitl [Ha]
  · iexact Ha
  isplitl [Hb]
  · iexact Hb
  iexact H1

/-! ## The invariant at the two ends -/

/-- Before the first point the invariant asks only for the scratch accumulator at some contents: the one scoped
    buffer that is no staging buffer. -/
theorem phi_entry (c : Dev nD) :
    iprop((emp : sProp 𝕄) ∗ Pipeline.scopedRest spec0 c) ⊢ (dats m 0 c).Φ 0 := by
  rw [show (dats m 0 c).Φ 0 = iprop(∃ d, owns (c : Thread nD τ) scM fullShare d) from rfl, scopedRest0_eq]
  simp only [scM, owns_whole]
  iintro ⟨-, H⟩; iexact H

/-- After the last of the 16 points the invariant holds the scratch at the last accumulator, which is some contents. -/
theorem phi_exit (c : Dev nD) :
    (dats m 0 c).Φ (Fin.last cfg0.N) ⊢ iprop((emp : sProp 𝕄) ∗ Pipeline.scopedRest spec0 c) := by
  rw [show (dats m 0 c).Φ (Fin.last cfg0.N)
        = owns (c : Thread nD τ) scM fullShare (accAt m c 15 (by rw [show cfg0.N = 16 from N_0]; decide)) from rfl,
    scopedRest0_eq]
  simp only [scM, owns_whole]
  iintro H; isplitr; · iempintro
  iexists _; iexact H

/-! ## The run -/

set_option backward.isDefEq.respectTransparency.types false in
/-- From any memory with zero counters, every weakly fair execution of the program on the core terminates; in every
    final state each window's array holds what the write-backs of all 16 points leave in it, and the argument holds
    what it held at the launch — given the body's obligation at every point. -/
theorem run_main (ρ : Dev nD → PrngReg)
    (hbody : ∀ c, Pipeline.BodyObligationLoose (dats (F := F) m 0 c) (defs₀ (F := F)) Variants.none () Set.univ) :
    θ_run defs (onTc (τ := τ) (main (F := F))) ⟨m, fun _ => 0, ρ⟩ (fun r => ∀ c : Dev nD,
      (∀ w, r.2.mem ((cfg0.spec w).arr.view.loc (c.tc : Thread nD τ)) = (dats m 0 c).arrAt w cfg0.N)
      ∧ r.2.mem ((c.tc : Thread nD τ).loc main_arg0) = m ((c.tc : Thread nD τ).loc main_arg0)) :=
  Pipeline.θ_run_region_noSem_shared cfgs (dats m) () cellOf_inj (0 : Fin 1) winFacts₀0 emb₁ defs₀ Variants.none m ρ main
    (hbody := hbody) (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m)
    -- the program is the reshape, then the loop: the loop is entered at the contents the reshape leaves
    (hmain := Pipeline.hmain_prefix cfgs 0 defs₀ Variants.none m main hostOps0 hostOps0_sub
      (by simp only [List.Forall]; repeat' constructor) main_chain)
    (hsplit := arrays_entry m)
    -- nothing but the scratch enters the invariant; the argument waits outside the loop, whole, to be read at the end
    (X := fun _ => iprop(emp)) (Y := fun _ => iprop(emp))
    (Z := fun c => Pipeline.unscopedRest spec0 c (V m c))
    (hX := fun c => by
      iintro H; isplitr; · iempintro
      iexact H)
    (hin := phi_entry m) (hout := phi_exit m)
    (QY := fun c s => s.mem ((c.tc : Thread nD τ).loc main_arg0) = V m c main_arg0)
    -- a buffer held whole at known contents is read off the memory
    (hY := fun c s' => by
      rw [unscopedRest0_eq]
      iintro ⟨-, Hz, HSI⟩
      icombine HSI Hz gives %h
      imodintro
      isplitr
      · ipureintro; exact Buf.eq_of_forall_mem_univ h
      · iexact HSI)
    (hQ := fun s h c => ⟨(h c).1, (h c).2⟩)

/-- In particular the argument is left as it was launched. -/
theorem frame (ρ : Dev nD → PrngReg)
    (hbody : ∀ c, Pipeline.BodyObligationLoose (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run _ _ _).mono (fun r h c => (h c).2) (run_main m ρ hbody)

end Cert.Kernel.Gram

end
-- ==== Proof.KI.Data.lean ====
/-
  The Gram kernel's proof data, for every float instance.

  The grid has 2 × 8 points, point t = 8·i + k. Window 0 hands the body the 2048 × 384 block (k, i) of the
  16384 × 768 row matrix, window 1 the 2048 × 768 block (k, 0) of the SAME matrix, window 2 is the 384 × 768 block
  (i, 0) of the result. The body keeps a 384 × 768 accumulator in scratch: at k = 0 it is reset to zero, at every
  point the product (left block)ᵀ · (right block) is added to it, and at k = 7 the result block is written from it
  (halved after scaling by 2⁻¹⁴, less one half). `accAt` is the accumulator after each point, by recursion on
  the point; `outAt` what the body then leaves in the result's staging buffer.
-/
import proofs.«140051_j67310727463545_1_alg».proof.Proof.Gen.KernelIdeal.Launch
import proofs.«140051_j67310727463545_1_alg».proof.Proof.Gen.KernelIdeal.Skeleton
import proofs.«140051_j67310727463545_1_alg».proof.Proof.Gen.KernelIdeal.Points
import Idealize.ShloMosaic.Lib.Pipeline.FrameBody
import Idealize.ShloMosaic.Lib.Pipeline.Frame

noncomputable section

namespace Cert.KernelIdeal.Gram

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffers when the region is entered: the launch contents after the one host operation before it (the
    input read as a matrix of rows). -/
abbrev V0 (c : Dev nD) : Valuation τ sig (Elt F) := StableHlo.after hostOps0 (fun b => m (c, b))
/-- The same at a TensorCore reference. -/
abbrev V (c : Dev nD) (b : Ref sig .tc) : Buf (Elt F) ((c : Thread nD τ).loc b) := V0 m c (Proc.devRef .tc b)

/-- The host operation writes the row matrix only: the argument is as launched. -/
theorem V_main_arg0 (c : Dev nD) : V m c main_arg0 = m ((c : Thread nD τ).loc main_arg0) := rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left operand's block at a point: 2048 rows of 384 columns. -/
abbrev lblk (c : Dev nD) (t : Fin cfg0.N) : Vec F S2048x384 .f32 := iblk m c 0 t
/-- The right operand's block at a point: 2048 rows of all 768 columns. -/
abbrev rblk (c : Dev nD) (t : Fin cfg0.N) : Vec F S2048x768 .f32 := iblk m c 1 t

/-! ## The accumulator, point by point -/

/-- The scratch accumulator after the body at position `n`: the point's product added to zero at the first point
    of each row of the grid (n ≡ 0 mod 8), else to what the point before left. -/
def accAt (c : Dev nD) : (n : ℕ) → n < cfg0.N → Vec F S384x768 .f32
  | 0, hn => k0_pay2 (lblk m c ⟨0, hn⟩) (rblk m c ⟨0, hn⟩) (k0_pay1 (F := F))
  | n + 1, hn =>
    if (n + 1) % 8 = 0 then k0_pay2 (lblk m c ⟨n + 1, hn⟩) (rblk m c ⟨n + 1, hn⟩) (k0_pay1 (F := F))
    else k0_pay2 (lblk m c ⟨n + 1, hn⟩) (rblk m c ⟨n + 1, hn⟩) (accAt c n (Nat.lt_of_succ_lt hn))

/-- At the first point of a grid row the accumulator is the point's product alone. -/
theorem accAt_reset (c : Dev nD) (t : Fin cfg0.N) (h : t.val % 8 = 0) :
    accAt m c t.val t.isLt = k0_pay2 (lblk m c t) (rblk m c t) (k0_pay1 (F := F)) := by
  obtain ⟨n, hn⟩ := t
  cases n with
  | zero => rfl
  | succ n => exact (if_pos h).trans rfl

/-- At any other point it is the point's product added to what the point before left. -/
theorem accAt_step (c : Dev nD) (t : Fin cfg0.N) (h : ¬ t.val % 8 = 0) :
    accAt m c t.val t.isLt
      = k0_pay2 (lblk m c t) (rblk m c t) (accAt m c (t.val - 1) (Nat.lt_of_le_of_lt (Nat.sub_le _ _) t.isLt)) := by
  obtain ⟨n, hn⟩ := t
  cases n with
  | zero => exact absurd (Nat.zero_mod _) h
  | succ n => exact (if_neg h).trans rfl

/-- What the body leaves in the result's staging buffer at a point that stores it: the accumulator scaled. -/
def outAt (c : Dev nD) (t : Fin cfg0.N) : Vec F S384x768 .f32 := k0_pay3 (accAt m c t.val t.isLt)

/-! ## The region invariant -/

/-- The scratch accumulator as a memref. -/
abbrev scM : Memref sig .tc .vmem S384x768 .f32 := Memref.whole cc0_scratch0

/-- Before position `n`: the scratch at anything before the first point, afterwards at the accumulator the point
    before left. -/
def PhiS (c : Dev nD) : (n : ℕ) → n ≤ cfg0.N → sProp 𝕄
  | 0, _ => iprop(∃ d, owns (c : Thread nD τ) scM fullShare d)
  | n + 1, hn => owns (c : Thread nD τ) scM fullShare (accAt m c n hn)

theorem PhiS_zero (c : Dev nD) (n : ℕ) (h : n ≤ cfg0.N) (hz : n = 0) :
    PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare (accAt m c n hn) := rfl

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- One half of the row matrix for each of the two windows that read it. -/
abbrev halfL : PosShare TreeShare := fullShare.left
abbrev halfR : PosShare TreeShare := fullShare.right

/-- The pipeline's proof data on core `c`: the arrays as the region finds them; each operand window's buffer left at
    its block, the result window's at `outAt`; the invariant `PhiS`; the row matrix shared in halves between the two
    operand windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q w := match w with
    | ⟨0, _⟩ => halfL
    | ⟨1, _⟩ => halfR
    | ⟨2, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt m c t := by dsimp only [dats]

end Cert.KernelIdeal.Gram

end
-- ==== Proof.KI.Body.lean ====
/-
  The Gram kernel's body at every grid point, for every float instance.

  The body branches twice on the reduction coordinate k (point t = 8·i + k): at k = 0 it first stores zero into the
  scratch accumulator; it always loads the two operand blocks and the accumulator and stores the accumulator plus
  (left block)ᵀ·(right block); at k = 7 it then loads the accumulator and stores its scaled form into the result's
  staging buffer. So there are three cases of a point — first of a row (reset), middle, last of a row — and in each the
  body runs from the operand blocks, the accumulator the point before left (anything, at a reset) and the result buffer
  to the same blocks, the accumulator `accAt` of this point, and the result buffer untouched (handed back as found) or,
  at the last point of a row, at `outAt`.
-/
import proofs.«140051_j67310727463545_1_alg».proof.Proof.KI.Data
import Idealize.ShloMosaic.Lib.Tactic
import Idealize.ShloMosaic.Lib.Ring
import Idealize.ShloMosaic.Lib.Pipeline.Value

set_option maxRecDepth 16384

noncomputable section

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The two branch conditions over the grid -/

/-- "This is the first point of a grid row": the reduction coordinate is 0. -/
abbrev isFirst (i : grid0.Coords) : Prop :=
  (Scalar.cmpi .ne (Scalar.extui (Scalar.cmpi .eq (BitVec.ofNat 32 (i 1).val) 0#32)) 0#32) = 1#1
/-- "This is the last point of a grid row": the reduction coordinate is 7. -/
abbrev isLast (i : grid0.Coords) : Prop := k0_cond2 i = 1#1

theorem isFirst_iff : ∀ t : Fin cfg0.N, isFirst (grid0.coords t) ↔ t.val % 8 = 0 :=
  (by decide +kernel : ∀ t : Fin grid0.N, isFirst (grid0.coords t) ↔ t.val % 8 = 0)
theorem isLast_iff : ∀ t : Fin cfg0.N, isLast (grid0.coords t) ↔ t.val % 8 = 7 :=
  (by decide +kernel : ∀ t : Fin grid0.N, isLast (grid0.coords t) ↔ t.val % 8 = 7)

/-- The operand windows are never idle. -/
theorem live_0 : ∀ t : Fin cfg0.N, cfg0.idle 0 (grid0.coords t) = false := by decide +kernel
theorem live_1 : ∀ t : Fin cfg0.N, cfg0.idle 1 (grid0.coords t) = false := by decide +kernel
/-- The result window is idle, and not written back, except at the last point of a row. -/
theorem idle_2 : ∀ t : Fin cfg0.N, ¬ isLast (grid0.coords t) → cfg0.idle 2 (grid0.coords t) = true := by decide +kernel
theorem noFlush_2 : ∀ t : Fin cfg0.N, ¬ isLast (grid0.coords t) → (cfg0.win 2).flush t = false := by decide +kernel
theorem live_2 : ∀ t : Fin cfg0.N, isLast (grid0.coords t) → cfg0.idle 2 (grid0.coords t) = false := by decide +kernel

/-! ## The staging memrefs at a point, and what the operand windows hold there -/

abbrev msL (t : Fin cfg0.N) : Memref sig .tc .vmem S2048x384 .f32 := win0_0.stage (cfg0.slots t 0)
abbrev hsL (t : Fin cfg0.N) : (msL t).IsWhole := hstage0_0 ((cfg0.slots t 0).cast nbuf0_0)
abbrev msR (t : Fin cfg0.N) : Memref sig .tc .vmem S2048x768 .f32 := win0_1.stage (cfg0.slots t 1)
abbrev hsR (t : Fin cfg0.N) : (msR t).IsWhole := hstage0_1 ((cfg0.slots t 1).cast nbuf0_1)
abbrev msO (t : Fin cfg0.N) : Memref sig .tc .vmem S384x768 .f32 := win0_2.stage (cfg0.slots t 2)
abbrev hsO (t : Fin cfg0.N) : (msO t).IsWhole := hstage0_2 ((cfg0.slots t 2).cast nbuf0_2)

/-- Both operand windows are fetched at every point, so each holds its block when the body runs. -/
theorem before_0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)
theorem before_1 (c : Dev nD) (t : Fin cfg0.N) (d) : (dats m 0 c).before 1 t d = iblk m c 1 t :=
  ((dats m 0 c).before_fetched 1 t (fetch0_1 t) d).trans (by unfold Dat.fetched Dat.blockOf iblk; rw [A_eq]; try rfl)

/-! ## The three cases of the body, on any whole memrefs -/

/-- Zero offsets, however spelt. -/
theorem zero2 : (![0, 0] : Fin 2 → ℕ) = fun _ => 0 := by
  funext a; match a with | ⟨0, _⟩ => rfl | ⟨1, _⟩ => rfl

set_option maxHeartbeats 1000000 in
/-- A middle point: the accumulator `s` becomes `s` plus the blocks' product; nothing else changes. -/
theorem run_mid (c : Dev nD) (i : grid0.Coords) (a2 : Memref sig .tc .vmem S2048x384 .f32) (h2 : a2.IsWhole)
    (a3 : Memref sig .tc .vmem S2048x768 .f32) (h3 : a3.IsWhole) (a4 : Memref sig .tc .vmem S384x768 .f32) (h4 : a4.IsWhole)
    (a5 : Memref sig .tc .vmem S384x768 .f32) (h5 : a5.IsWhole) (hc1 : ¬ isFirst i) (hc2 : ¬ isLast i)
    (x0 : Vec F S2048x384 .f32) (x1 : Vec F S2048x768 .f32) (xo : Vec F S384x768 .f32) (s : Vec F S384x768 .f32)
    (E : Set ℕ) (K : PUnit → sProp 𝕄) :
    iprop(owns (c : Thread nD τ) a2 fullShare x0 ∗ owns (c : Thread nD τ) a3 fullShare x1 ∗ owns (c : Thread nD τ) a4 fullShare xo
        ∗ owns (c : Thread nD τ) a5 fullShare s
        ∗ (iprop(owns (c : Thread nD τ) a2 fullShare x0 ∗ owns (c : Thread nD τ) a3 fullShare x1 ∗ owns (c : Thread nD τ) a4 fullShare xo
            ∗ owns (c : Thread nD τ) a5 fullShare (k0_pay2 x0 x1 s)) -∗ K ⟨⟩))
      ⊢ wp frame (wpE (defs₀ (F := F)) Variants.none c none) E (cc0__gram_kernel i a2 h2 a3 h3 a4 h4 a5 h5) K := by
  simp only [cc0__gram_kernel_eq_skeleton]; unfold cc0__gram_kernel_skel
  unfold owns
  iintro ⟨⟨%f0, %hf0, H0⟩, ⟨%f1, %hf1, H1⟩, ⟨%fo, %hfo, Ho⟩, ⟨%fs, %hfs, HS⟩, Hk⟩
  obtain rfl := h2.eq_unread hf0; obtain rfl := h3.eq_unread hf1; obtain rfl := h5.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [Ho]
  · iexists _; isplitr; · ipureintro; exact hfo
    iexact Ho
  iexists _; isplitr
  swap; · iexact HS
  ipureintro
  sl_unfold_words
  rw [View.read_writes_eq_canon _ _ _ (fun y => ⟨_, List.mem_cons_self, View.mem_set_unit_zero zero2 inb_S384x768_S384x768_0_0 y⟩),
    View.canon_cons_unit_zero zero2]
  simp only [View.readAt_eq_ld, hf0, hf1, hfs, View.ld_unit_zero (S := S2048x384) zero2, View.ld_unit_zero (S := S2048x768) zero2,
    View.ld_unit_zero (S := S384x768) zero2, View.readCov_unit_zero (S := S384x768) _ zero2]

set_option maxHeartbeats 1000000 in
/-- The first point of a row: the accumulator, whatever it held, becomes zero plus the blocks' product. -/
theorem run_first (c : Dev nD) (i : grid0.Coords) (a2 : Memref sig .tc .vmem S2048x384 .f32) (h2 : a2.IsWhole)
    (a3 : Memref sig .tc .vmem S2048x768 .f32) (h3 : a3.IsWhole) (a4 : Memref sig .tc .vmem S384x768 .f32) (h4 : a4.IsWhole)
    (a5 : Memref sig .tc .vmem S384x768 .f32) (h5 : a5.IsWhole) (hc1 : isFirst i) (hc2 : ¬ isLast i)
    (x0 : Vec F S2048x384 .f32) (x1 : Vec F S2048x768 .f32) (xo : Vec F S384x768 .f32)
    (E : Set ℕ) (K : PUnit → sProp 𝕄) :
    iprop(owns (c : Thread nD τ) a2 fullShare x0 ∗ owns (c : Thread nD τ) a3 fullShare x1 ∗ owns (c : Thread nD τ) a4 fullShare xo
        ∗ (∃ d, owns (c : Thread nD τ) a5 fullShare d)
        ∗ (iprop(owns (c : Thread nD τ) a2 fullShare x0 ∗ owns (c : Thread nD τ) a3 fullShare x1 ∗ owns (c : Thread nD τ) a4 fullShare xo
            ∗ owns (c : Thread nD τ) a5 fullShare (k0_pay2 x0 x1 (k0_pay1 (F := F)))) -∗ K ⟨⟩))
      ⊢ wp frame (wpE (defs₀ (F := F)) Variants.none c none) E (cc0__gram_kernel i a2 h2 a3 h3 a4 h4 a5 h5) K := by
  simp only [cc0__gram_kernel_eq_skeleton]; unfold cc0__gram_kernel_skel
  unfold owns
  iintro ⟨⟨%f0, %hf0, H0⟩, ⟨%f1, %hf1, H1⟩, ⟨%fo, %hfo, Ho⟩, ⟨%ds, %fs, -, HS⟩, Hk⟩
  obtain rfl := h2.eq_unread hf0; obtain rfl := h3.eq_unread hf1
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [Ho]
  · iexists _; isplitr; · ipureintro; exact hfo
    iexact Ho
  iexists _; isplitr
  swap; · iexact HS
  ipureintro
  sl_unfold_words
  rw [View.read_writes_eq_canon _ _ _ (fun y => ⟨_, List.mem_cons_self, View.mem_set_unit_zero zero2 inb_S384x768_S384x768_0_0 y⟩),
    View.canon_cons_unit_zero zero2]
  simp only [View.readAt_eq_ld, hf0, hf1, View.ld_unit_zero (S := S2048x384) zero2, View.ld_unit_zero (S := S2048x768) zero2,
    View.ld_unit_zero (S := S384x768) zero2, View.readCov_unit_zero (S := S384x768) _ zero2]

set_option maxHeartbeats 1000000 in
/-- The last point of a row: the accumulator `s` becomes `s` plus the blocks' product, and the result buffer, whatever it
    held, the scaled form of that. -/
theorem run_last (c : Dev nD) (i : grid0.Coords) (a2 : Memref sig .tc .vmem S2048x384 .f32) (h2 : a2.IsWhole)
    (a3 : Memref sig .tc .vmem S2048x768 .f32) (h3 : a3.IsWhole) (a4 : Memref sig .tc .vmem S384x768 .f32) (h4 : a4.IsWhole)
    (a5 : Memref sig .tc .vmem S384x768 .f32) (h5 : a5.IsWhole) (hc1 : ¬ isFirst i) (hc2 : isLast i)
    (x0 : Vec F S2048x384 .f32) (x1 : Vec F S2048x768 .f32) (s : Vec F S384x768 .f32)
    (E : Set ℕ) (K : PUnit → sProp 𝕄) :
    iprop(owns (c : Thread nD τ) a2 fullShare x0 ∗ owns (c : Thread nD τ) a3 fullShare x1 ∗ (∃ d, owns (c : Thread nD τ) a4 fullShare d)
        ∗ owns (c : Thread nD τ) a5 fullShare s
        ∗ (iprop(owns (c : Thread nD τ) a2 fullShare x0 ∗ owns (c : Thread nD τ) a3 fullShare x1
            ∗ owns (c : Thread nD τ) a4 fullShare (k0_pay3 (k0_pay2 x0 x1 s))
            ∗ owns (c : Thread nD τ) a5 fullShare (k0_pay2 x0 x1 s)) -∗ K ⟨⟩))
      ⊢ wp frame (wpE (defs₀ (F := F)) Variants.none c none) E (cc0__gram_kernel i a2 h2 a3 h3 a4 h4 a5 h5) K := by
  simp only [cc0__gram_kernel_eq_skeleton]; unfold cc0__gram_kernel_skel
  unfold owns
  iintro ⟨⟨%f0, %hf0, H0⟩, ⟨%f1, %hf1, H1⟩, ⟨%dO, %fo, -, Ho⟩, ⟨%fs, %hfs, HS⟩, Hk⟩
  obtain rfl := h2.eq_unread hf0; obtain rfl := h3.eq_unread hf1; obtain rfl := h5.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [Ho]
  · iexists _; isplitr
    swap; · iexact Ho
    ipureintro
    sl_unfold_words
    rw [View.read_writes_eq_canon _ _ _ (fun y => ⟨_, List.mem_cons_self, View.mem_set_unit_zero zero2 inb_S384x768_S384x768_0_0 y⟩),
      View.canon_cons_unit_zero zero2]
    simp only [View.readAt_eq_ld, hf0, hf1, hfs, View.ld_unit_zero (S := S2048x384) zero2, View.ld_unit_zero (S := S2048x768) zero2,
      View.ld_unit_zero (S := S384x768) zero2, View.readCov_unit_zero (S := S384x768) _ zero2]
  iexists _; isplitr
  swap; · iexact HS
  ipureintro
  sl_unfold_words
  rw [View.read_writes_eq_canon _ _ _ (fun y => ⟨_, List.mem_cons_self, View.mem_set_unit_zero zero2 inb_S384x768_S384x768_0_0 y⟩),
    View.canon_cons_unit_zero zero2]
  simp only [View.readAt_eq_ld, hf0, hf1, hfs, View.ld_unit_zero (S := S2048x384) zero2, View.ld_unit_zero (S := S2048x768) zero2,
    View.ld_unit_zero (S := S384x768) zero2, View.readCov_unit_zero (S := S384x768) _ zero2]

/-! ## The body at any point, and the obligation -/

set_option maxHeartbeats 4000000 in
/-- At any point the operand buffers hold their blocks; the point's residue mod 8 says which case it is; the invariant
    hands the body the accumulator the point before left (anything at the very first point) and takes this point's back;
    the result buffer goes back as found except at the last point of a row, where it holds the scaled accumulator. -/
theorem sound_body (c : Dev nD) (t : Fin cfg0.N) :
    iprop((dats m 0 c).Φ t.castSucc ∗ (dats m 0 c).owesAt () t.castSucc
        ∗ (∃ d, owns (c : Thread nD τ) (msL t) fullShare ((dats m 0 c).before 0 t d))
        ∗ (∃ d, owns (c : Thread nD τ) (msR t) fullShare ((dats m 0 c).before 1 t d))
        ∗ (∃ d, owns (c : Thread nD τ) (msO t) fullShare ((dats m 0 c).before 2 t d)))
      ⊢ wp frame (wpE (defs₀ (F := F)) Variants.none c none) Set.univ (bodyAt0 t) (fun _ =>
          iprop((dats m 0 c).Φ t.succ ∗ (dats m 0 c).owesAt () t.succ
            ∗ (dats m 0 c).leavesExact 0 t ∗ (dats m 0 c).leavesExact 1 t ∗ (dats m 0 c).leavesExact 2 t)) := by
  unfold bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (msL t) fullShare ((dats m 0 c).after 0 t) from by
      unfold Dat.leavesExact; rw [live_0 t], after_0]
  rw [show (dats m 0 c).leavesExact 1 t = owns (c : Thread nD τ) (msR t) fullShare ((dats m 0 c).after 1 t) from by
      unfold Dat.leavesExact; rw [live_1 t], after_1]
  have hN : t.val < 16 := lt_of_lt_of_eq t.isLt (show cfg0.N = 16 from N_0)
  by_cases h7 : t.val % 8 = 7
  · have h0 : ¬ t.val % 8 = 0 := by omega
    have hz : t.val ≠ 0 := by omega
    rw [show (dats m 0 c).leavesExact 2 t = owns (c : Thread nD τ) (msO t) fullShare ((dats m 0 c).after 2 t) from by
      unfold Dat.leavesExact; rw [live_2 t ((isLast_iff t).mpr h7)], after_2]
    unfold outAt
    rw [accAt_step m c t h0, Phi_castSucc m c t, PhiS_pos m c _ _ hz]
    iintro ⟨HS, Ho, ⟨%d0, H0⟩, ⟨%d1, H1⟩, ⟨%d2, H2⟩⟩
    iapply (run_last c (grid0.coords t) _ _ _ _ _ _ _ _ (fun h => h0 ((isFirst_iff t).mp h)) ((isLast_iff t).mpr h7) (lblk m c t) (rblk m c t) _ Set.univ _)
    isplitl [H0]; · iexact H0
    isplitl [H1]; · iexact H1
    isplitl [H2]; · iexists _; iexact H2
    isplitl [HS]; · iexact HS
    iintro ⟨H0, H1, H2, HS⟩
    isplitl [HS]; · iexact HS
    isplitl [Ho]; · iexact Ho
    isplitl [H0]; · iexact H0
    isplitl [H1]; · iexact H1
    iexact H2
  · rw [Dat.leavesExact_idle (dats m 0 c) 2 t (idle_2 t (fun h => h7 ((isLast_iff t).mp h))) (noFlush_2 t (fun h => h7 ((isLast_iff t).mp h)))]
    by_cases h0 : t.val % 8 = 0
    · rw [accAt_reset m c t h0]
      by_cases hz : t.val = 0
      · rw [Phi_castSucc m c t, PhiS_zero m c _ _ hz]
        iintro ⟨HS, Ho, ⟨%d0, H0⟩, ⟨%d1, H1⟩, ⟨%d2, H2⟩⟩
        iapply (run_first c (grid0.coords t) _ _ _ _ _ _ _ _ ((isFirst_iff t).mpr h0) (fun h => h7 ((isLast_iff t).mp h)) (lblk m c t) (rblk m c t) _ Set.univ _)
        isplitl [H0]; · iexact H0
        isplitl [H1]; · iexact H1
        isplitl [H2]; · iexact H2
        isplitl [HS]; · iexact HS
        iintro ⟨H0, H1, H2, HS⟩
        isplitl [HS]; · iexact HS
        isplitl [Ho]; · iexact Ho
        isplitl [H0]; · iexact H0
        isplitl [H1]; · iexact H1
        iexists _; iexact H2
      · rw [Phi_castSucc m c t, PhiS_pos m c _ _ hz]
        iintro ⟨HS, Ho, ⟨%d0, H0⟩, ⟨%d1, H1⟩, ⟨%d2, H2⟩⟩
        iapply (run_first c (grid0.coords t) _ _ _ _ _ _ _ _ ((isFirst_iff t).mpr h0) (fun h => h7 ((isLast_iff t).mp h)) (lblk m c t) (rblk m c t) _ Set.univ _)
        isplitl [H0]; · iexact H0
        isplitl [H1]; · iexact H1
        isplitl [H2]; · iexact H2
        isplitl [HS]; · iexists _; iexact HS
        iintro ⟨H0, H1, H2, HS⟩
        isplitl [HS]; · iexact HS
        isplitl [Ho]; · iexact Ho
        isplitl [H0]; · iexact H0
        isplitl [H1]; · iexact H1
        iexists _; iexact H2
    · have hz : t.val ≠ 0 := fun h => h0 (by rw [h])
      rw [accAt_step m c t h0, Phi_castSucc m c t, PhiS_pos m c _ _ hz]
      iintro ⟨HS, Ho, ⟨%d0, H0⟩, ⟨%d1, H1⟩, ⟨%d2, H2⟩⟩
      iapply (run_mid c (grid0.coords t) _ _ _ _ _ _ _ _ (fun h => h0 ((isFirst_iff t).mp h)) (fun h => h7 ((isLast_iff t).mp h)) (lblk m c t) (rblk m c t) _ _ Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Gram

end
-- ==== Proof.KI.Launch.lean ====
/-
  The Gram kernel's launch, for every float instance.

  The program is one reshape of the argument into the 16384 × 768 row matrix, then one grid loop whose two operand
  windows read that SAME matrix and whose third window writes the result. At the loop's entry the row matrix is held
  at the full share; that share is split in two half shares, one for each operand window, each half share still
  naming the whole matrix's contents (a points-to splits along its share, not along its elements), the result array
  going at the full share to the output window. The scratch accumulator enters at anything and leaves at the last point's
  accumulator; the argument, which the loop never touches, is read back unchanged at the end.
-/
import proofs.«140051_j67310727463545_1_alg».proof.Proof.KI.Data
import Idealize.ShloMosaic.Lib.Pipeline.Launch
import Idealize.ShloMosaic.Lib.Pipeline.Frame

noncomputable section

namespace Cert.KernelIdeal.Gram

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays at entry -/

/-- The distinct buffers behind the three windows' arrays are two: the row matrix and the result, each whole. -/
theorem arrBufs_eq (c : Dev nD) :
    (Pipeline.arrBufs (Ix := Unit) (Name := ℕ) (U := UR sig nD τ) (Lvl := ℕ) cfg0.spec c (V m c) : sProp 𝕄)
      = iprop((((c : Thread nD τ).loc main_v0) ↦{fullShare} V m c main_v0) ∗ (((c : Thread nD τ).loc main_v1) ↦{fullShare} V m c main_v1)) :=
  bigSep_eq_bigSepL_of_eq [main_v0, main_v1] (by decide) (by decide) _

/-- A window's array at entry: a whole buffer, so all of its elements, at the window's share and the entry contents. -/
theorem arr_entry (c : Dev nD) (w : Fin 3) :
    (((cfg0.win w).arr.view.loc (c : Thread nD τ)) ↦[(cfg0.win w).arr.view.set]{(dats m 0 c).share w} ((dats m 0 c).arrAt w 0) : sProp 𝕄)
      = (((c : Thread nD τ).loc (Pipeline.arrRef spec0 w)) ↦{(dats m 0 c).share w} V m c (Pipeline.arrRef spec0 w)) := by
  rw [(arr_whole0 w).set_eq_univ]
  rfl

/-- The left operand's window holds the whole row matrix at one half of the full share, -/
theorem arr_entry_0 (c : Dev nD) :
    (((cfg0.win (0 : Fin 3)).arr.view.loc (c : Thread nD τ)) ↦[(cfg0.win (0 : Fin 3)).arr.view.set]{(dats m 0 c).share (0 : Fin 3)} ((dats m 0 c).arrAt (0 : Fin 3) 0) : sProp 𝕄)
      = (((c : Thread nD τ).loc main_v0) ↦{halfL} V m c main_v0) := arr_entry m c 0
/-- the right operand's window the same contents at the other half of the share, -/
theorem arr_entry_1 (c : Dev nD) :
    (((cfg0.win (1 : Fin 3)).arr.view.loc (c : Thread nD τ)) ↦[(cfg0.win (1 : Fin 3)).arr.view.set]{(dats m 0 c).share (1 : Fin 3)} ((dats m 0 c).arrAt (1 : Fin 3) 0) : sProp 𝕄)
      = (((c : Thread nD τ).loc main_v0) ↦{halfR} V m c main_v0) := arr_entry m c 1
/-- and the result's window the result array at the full share. -/
theorem arr_entry_2 (c : Dev nD) :
    (((cfg0.win (2 : Fin 3)).arr.view.loc (c : Thread nD τ)) ↦[(cfg0.win (2 : Fin 3)).arr.view.set]{(dats m 0 c).share (2 : Fin 3)} ((dats m 0 c).arrAt (2 : Fin 3) 0) : sProp 𝕄)
      = (((c : Thread nD τ).loc main_v1) ↦{fullShare} V m c main_v1) := arr_entry m c 2

/-- The two buffers held whole make the three windows' arrays at entry: the row matrix's full share is the sum of
    its two half shares, one for each operand window, both at the same contents; the result array goes to its window
    as it is. -/
theorem arrays_entry (c : Dev nD) :
    (Pipeline.arrBufs (Ix := Unit) (Name := ℕ) (U := UR sig nD τ) (Lvl := ℕ) cfg0.spec c (V m c) : sProp 𝕄)
      ⊢ (dats m 0 c).arrays ((dats m 0 c).arrAt · 0) := by
  rw [arrBufs_eq]
  unfold Dat.arrays
  rw [bigSep_W0, arr_entry_0, arr_entry_1, arr_entry_2]
  iintro ⟨H0, H1⟩
  ihave H0 := (pointsTo_share (PosShare.mem_left_op_right fullShare)).1 $$ H0
  icases H0 with ⟨Ha, Hb⟩
  isplitl [Ha]
  · iexact Ha
  isplitl [Hb]
  · iexact Hb
  iexact H1

/-! ## The invariant at the two ends -/

/-- Before the first point the invariant asks only for the scratch accumulator at some contents: the one scoped
    buffer that is no staging buffer. -/
theorem phi_entry (c : Dev nD) :
    iprop((emp : sProp 𝕄) ∗ Pipeline.scopedRest spec0 c) ⊢ (dats m 0 c).Φ 0 := by
  rw [show (dats m 0 c).Φ 0 = iprop(∃ d, owns (c : Thread nD τ) scM fullShare d) from rfl, scopedRest0_eq]
  simp only [scM, owns_whole]
  iintro ⟨-, H⟩; iexact H

/-- After the last of the 16 points the invariant holds the scratch at the last accumulator, which is some contents. -/
theorem phi_exit (c : Dev nD) :
    (dats m 0 c).Φ (Fin.last cfg0.N) ⊢ iprop((emp : sProp 𝕄) ∗ Pipeline.scopedRest spec0 c) := by
  rw [show (dats m 0 c).Φ (Fin.last cfg0.N)
        = owns (c : Thread nD τ) scM fullShare (accAt m c 15 (by rw [show cfg0.N = 16 from N_0]; decide)) from rfl,
    scopedRest0_eq]
  simp only [scM, owns_whole]
  iintro H; isplitr; · iempintro
  iexists _; iexact H

/-! ## The run -/

set_option backward.isDefEq.respectTransparency.types false in
/-- From any memory with zero counters, every weakly fair execution of the program on the core terminates; in every
    final state each window's array holds what the write-backs of all 16 points leave in it, and the argument holds
    what it held at the launch — given the body's obligation at every point. -/
theorem run_main (ρ : Dev nD → PrngReg)
    (hbody : ∀ c, Pipeline.BodyObligationLoose (dats (F := F) m 0 c) (defs₀ (F := F)) Variants.none () Set.univ) :
    θ_run defs (onTc (τ := τ) (main (F := F))) ⟨m, fun _ => 0, ρ⟩ (fun r => ∀ c : Dev nD,
      (∀ w, r.2.mem ((cfg0.spec w).arr.view.loc (c.tc : Thread nD τ)) = (dats m 0 c).arrAt w cfg0.N)
      ∧ r.2.mem ((c.tc : Thread nD τ).loc main_arg0) = m ((c.tc : Thread nD τ).loc main_arg0)) :=
  Pipeline.θ_run_region_noSem_shared cfgs (dats m) () cellOf_inj (0 : Fin 1) winFacts₀0 emb₁ defs₀ Variants.none m ρ main
    (hbody := hbody) (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m)
    -- the program is the reshape, then the loop: the loop is entered at the contents the reshape leaves
    (hmain := Pipeline.hmain_prefix cfgs 0 defs₀ Variants.none m main hostOps0 hostOps0_sub
      (by simp only [List.Forall]; repeat' constructor) main_chain)
    (hsplit := arrays_entry m)
    -- nothing but the scratch enters the invariant; the argument waits outside the loop, whole, to be read at the end
    (X := fun _ => iprop(emp)) (Y := fun _ => iprop(emp))
    (Z := fun c => Pipeline.unscopedRest spec0 c (V m c))
    (hX := fun c => by
      iintro H; isplitr; · iempintro
      iexact H)
    (hin := phi_entry m) (hout := phi_exit m)
    (QY := fun c s => s.mem ((c.tc : Thread nD τ).loc main_arg0) = V m c main_arg0)
    -- a buffer held whole at known contents is read off the memory
    (hY := fun c s' => by
      rw [unscopedRest0_eq]
      iintro ⟨-, Hz, HSI⟩
      icombine HSI Hz gives %h
      imodintro
      isplitr
      · ipureintro; exact Buf.eq_of_forall_mem_univ h
      · iexact HSI)
    (hQ := fun s h c => ⟨(h c).1, (h c).2⟩)

/-- In particular the argument is left as it was launched. -/
theorem frame (ρ : Dev nD → PrngReg)
    (hbody : ∀ c, Pipeline.BodyObligationLoose (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run _ _ _).mono (fun r h c => (h c).2) (run_main m ρ hbody)

end Cert.KernelIdeal.Gram

end
-- ==== Proof.RefTerm.lean ====
/-
  The reference's result as ONE pure term of its argument, for every float instance: the rows of the input with its
  two leading axes merged (`rows`), their Gram matrix divided by the row count (`gram`), the column means of the squared
  entries (`meanSq`), that vector laid on the diagonal of a zero matrix (`diagOf`: a select on `row index = column index`),
  and the mix  ½·(gram − diag) + ½·(diag − 1).
-/
import proofs.«140051_j67310727463545_1_alg».proof.ReferenceIdeal
import proofs.«140051_j67310727463545_1_alg».proof.Proof.Gen.ReferenceIdeal

noncomputable section

namespace Cert.ReferenceIdeal.RefTerm

open Cert.ReferenceIdeal Cert.ReferenceIdeal.Gen Idealize.ShloMosaic

variable {F : FTy → Type} [FloatOps F]

/-- The input read as 16384 rows of 768 entries. -/
def rows (x : FVec F S8x2048x768 .f32) : FVec F S16384x768 .f32 :=
  shapeCast S16384x768 x shapeCasts_S8x2048x768_S16384x768

/-- A scalar literal spread over the 768 × 768 matrix. -/
def splat (w : BitVec 32) : FVec F S768x768 .f32 :=
  broadcastInDim S768x768 ![] bcast_S_S768x768 (constant S_ .f32 w)

/-- The Gram matrix of the rows, each entry divided by 16384. -/
def gram (xf : FVec F S16384x768 .f32) : FVec F S768x768 .f32 :=
  Host.divf (Host.dotGeneral dot_S16384x768_S16384x768_S768x768_0_0_1_1_n_n none xf xf) (splat 0x46800000#32)

/-- Per column, the sum of the squared entries (from zero) divided by 16384. -/
def meanSq (xf : FVec F S16384x768 .f32) : FVec F S768 .f32 :=
  Host.divf (Host.reduceAdd (mulf xf xf) (constant S_ .f32 0x00000000#32) reducesTo_S16384x768_S768_d0 h_S_)
    (broadcastInDim S768 ![] bcast_S_S768 (constant S_ .f32 0x46800000#32))

/-- A vector laid on the diagonal of the zero matrix. -/
def diagOf (v : FVec F S768 .f32) : FVec F S768x768 .f32 :=
  select
    (cmpi .eq (addi (iotaInDim S768x768 32 0) (broadcastInDim S768x768 ![] bcast_S_S768x768 (constantI S_ 32 0#32)))
      (iotaInDim S768x768 32 1))
    (broadcastInDim S768x768 ![0, 1] bcast_S768x1_S768x768_0_1
      (broadcastInDim S768x1 ![0] bcast_S768_S768x1_0
        (pad S768 ![0] ![0] ![0] v (constant S_ .f32 0x00000000#32) pads_S768_S768_000 h_S_)))
    (splat 0x00000000#32)

/-- The reference's result. -/
def refOut (x : FVec F S8x2048x768 .f32) : FVec F S768x768 .f32 :=
  addf (mulf (splat 0x3F000000#32) (subf (gram (rows x)) (diagOf (meanSq (rows x)))))
    (mulf (splat 0x3F000000#32) (subf (diagOf (meanSq (rows x))) (splat 0x3F800000#32)))

end Cert.ReferenceIdeal.RefTerm

end
-- ==== Proof.RefRun.lean ====
/-
  The reference program read as a straight line. Its entry function is thirty-five host operations once the one call it
  makes (a vector laid on a diagonal, which itself calls a select of a broadcast against a broadcast scalar) is unfolded at
  the call site over that call's own buffers. Run in order from any memory, each operation writes one buffer as a pure
  function of buffers written earlier, so the last buffer ends at the composition of those functions applied to the
  argument, and the argument, written by none of them, keeps its contents. That composition is the term `refOut`:
  the rows' Gram matrix over the row count, minus the diagonal of mean squares, halved, plus half of that diagonal minus one.
-/
import proofs.«140051_j67310727463545_1_alg».proof.ReferenceIdeal
import proofs.«140051_j67310727463545_1_alg».proof.Proof.Gen.ReferenceIdeal
import proofs.«140051_j67310727463545_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations in program order. Eleven come before the call: the rows, their Gram matrix and its division by the row
    count, the squares, their column sums and the division by the row count. Thirteen are the call unfolded: the zero, the
    (trivial) padding of the vector, the two index grids, the integer zero spread and added to the row grid, the comparison
    of the grids, the vector as a column, a second zero, and then the inner call's three: the column spread along rows, the
    zero spread, the select. Eleven follow: the two differences, each scaled by one half, and their sum. -/
abbrev ops : List (HloOp τ sig (Elt F)) :=
  [ reshape main_arg0 main_v0 rfl shapeCasts_S8x2048x768_S16384x768,
    binary main_v0 main_v0 main_v1 ((fun l r => Host.dotGeneral dot_S16384x768_S16384x768_S768x768_0_0_1_1_n_n none l r) : (⟨S16384x768, .f32⟩ : BufTy).Contents (Elt F) → (⟨S16384x768, .f32⟩ : BufTy).Contents (Elt F) → (⟨S768x768, .f32⟩ : BufTy).Contents (Elt F)),
    nullary main_cst (constant S_ .f32 0x46800000#32),
    unary main_cst main_v2 (broadcastInDim S768x768 ![] bcast_S_S768x768 : (⟨S_, .f32⟩ : BufTy).Contents (Elt F) → (⟨S768x768, .f32⟩ : BufTy).Contents (Elt F)),
    binary main_v1 main_v2 main_v3 (Host.divf : (⟨S768x768, .f32⟩ : BufTy).Contents (Elt F) → (⟨S768x768, .f32⟩ : BufTy).Contents (Elt F) → (⟨S768x768, .f32⟩ : BufTy).Contents (Elt F)),
    binary main_v0 main_v0 main_v4 (mulf : (⟨S16384x768, .f32⟩ : BufTy).Contents (Elt F) → (⟨S16384x768, .f32⟩ : BufTy).Contents (Elt F) → (⟨S16384x768, .f32⟩ : BufTy).Contents (Elt F)),
    nullary main_cst_0 (constant S_ .f32 0x00000000#32),
    binary main_v4 main_cst_0 main_v5 ((fun x v => Host.reduceAdd x v reducesTo_S16384x768_S768_d0 h_S_) : (⟨S16384x768, .f32⟩ : BufTy).Contents (Elt F) → (⟨S_, .f32⟩ : BufTy).Contents (Elt F) → (⟨S768, .f32⟩ : BufTy).Contents (Elt F)),
    nullary main_cst_1 (constant S_ .f32 0x46800000#32),
    unary main_cst_1 main_v6 (broadcastInDim S768 ![] bcast_S_S768 : (⟨S_, .f32⟩ : BufTy).Contents (Elt F) → (⟨S768, .f32⟩ : BufTy).Contents (Elt F)),
    binary main_v5 main_v6 main_v7 (Host.divf : (⟨S768, .f32⟩ : BufTy).Contents (Elt F) → (⟨S768, .f32⟩ : BufTy).Contents (Elt F) → (⟨S768, .f32⟩ : BufTy).Contents (Elt F)),
    TRef.nullary main_call0.cst (constant S_ .f32 0x00000000#32),
    TRef.binary (.of main_v7 : TRef sig ⟨S768, .f32⟩) main_call0.cst main_call0.v0 (fun x v => pad S768 ![0] ![0] ![0] x v pads_S768_S768_000 h_S_),
    TRef.nullary main_call0.v1 (iotaInDim S768x768 32 0),
    TRef.nullary main_call0.v2 (iotaInDim S768x768 32 1),
    TRef.nullary main_call0.c (constantI S_ 32 0#32),
    TRef.unary main_call0.c main_call0.v3 (broadcastInDim S768x768 ![] bcast_S_S768x768),
    TRef.binary main_call0.v1 main_call0.v3 main_call0.v4 addi,
    TRef.binary main_call0.v4 main_call0.v2 main_call0.v5 (cmpi .eq),
    TRef.unary main_call0.v0 main_call0.v6 (broadcastInDim S768x1 ![0] bcast_S768_S768x1_0),
    TRef.nullary main_call0.cst_0 (constant S_ .f32 0x00000000#32),
    TRef.unary main_call0.v6 main_call0.call0.v0 (broadcastInDim S768x768 ![0, 1] bcast_S768x1_S768x768_0_1),
    TRef.unary main_call0.cst_0 main_call0.call0.v1 (broadcastInDim S768x768 ![] bcast_S_S768x768),
    TRef.ternary main_call0.v5 main_call0.call0.v0 main_call0.call0.v1 main_call0.call0.v2 select,
    binary main_v3 main_v8 main_v9 (subf : (⟨S768x768, .f32⟩ : BufTy).Contents (Elt F) → (⟨S768x768, .f32⟩ : BufTy).Contents (Elt F) → (⟨S768x768, .f32⟩ : BufTy).Contents (Elt F)),
    nullary main_cst_2 (constant S_ .f32 0x3F000000#32),
    unary main_cst_2 main_v10 (broadcastInDim S768x768 ![] bcast_S_S768x768 : (⟨S_, .f32⟩ : BufTy).Contents (Elt F) → (⟨S768x768, .f32⟩ : BufTy).Contents (Elt F)),
    binary main_v10 main_v9 main_v11 (mulf : (⟨S768x768, .f32⟩ : BufTy).Contents (Elt F) → (⟨S768x768, .f32⟩ : BufTy).Contents (Elt F) → (⟨S768x768, .f32⟩ : BufTy).Contents (Elt F)),
    nullary main_cst_3 (constant S_ .f32 0x3F800000#32),
    unary main_cst_3 main_v12 (broadcastInDim S768x768 ![] bcast_S_S768x768 : (⟨S_, .f32⟩ : BufTy).Contents (Elt F) → (⟨S768x768, .f32⟩ : BufTy).Contents (Elt F)),
    binary main_v8 main_v12 main_v13 (subf : (⟨S768x768, .f32⟩ : BufTy).Contents (Elt F) → (⟨S768x768, .f32⟩ : BufTy).Contents (Elt F) → (⟨S768x768, .f32⟩ : BufTy).Contents (Elt F)),
    nullary main_cst_4 (constant S_ .f32 0x3F000000#32),
    unary main_cst_4 main_v14 (broadcastInDim S768x768 ![] bcast_S_S768x768 : (⟨S_, .f32⟩ : BufTy).Contents (Elt F) → (⟨S768x768, .f32⟩ : BufTy).Contents (Elt F)),
    binary main_v14 main_v13 main_v15 (mulf : (⟨S768x768, .f32⟩ : BufTy).Contents (Elt F) → (⟨S768x768, .f32⟩ : BufTy).Contents (Elt F) → (⟨S768x768, .f32⟩ : BufTy).Contents (Elt F)),
    binary main_v11 main_v15 main_v16 (addf : (⟨S768x768, .f32⟩ : BufTy).Contents (Elt F) → (⟨S768x768, .f32⟩ : BufTy).Contents (Elt F) → (⟨S768x768, .f32⟩ : BufTy).Contents (Elt F)) ]

-- thirty-five sequencing steps are re-associated: the rewrite under the chain recurses once per statement
set_option maxRecDepth 2048 in
/-- The entry function is that line: with the two callees' bodies put in place of their calls and sequencing
    re-associated, both sides are one chain of the same steps. -/
theorem main_eq (c : Dev nD) : main (F := F) c = seq ops := by
  simp only [main, fn_diag.body, fn_where.body, seq, bind_assoc, pure_bind]

/-- The signature scopes no buffer and no semaphore: every buffer is a tensor value, live for the whole run. -/
theorem scopedRefs_eq : (Finset.univ.filter fun b : Ref sig .tc => b.isScoped) = ∅ := by decide
theorem scopedSems_eq : (Finset.univ.filter fun sm : SemLoc sig => sm.isScoped .tc) = ∅ := by decide

/-- Every operation touches only buffers of the device's one memory table. -/
theorem ops_sub : (ops : List (HloOp τ sig (Elt F))).Forall fun op => op.bufs ⊆ tcRefs τ sig :=
  ⟨reshape_bufs_sub .., binary_bufs_sub .., nullary_bufs_sub .., unary_bufs_sub .., binary_bufs_sub .., binary_bufs_sub ..,
    nullary_bufs_sub .., binary_bufs_sub .., nullary_bufs_sub .., unary_bufs_sub .., binary_bufs_sub ..,
    nullary_bufs_sub .., binary_bufs_sub .., nullary_bufs_sub .., nullary_bufs_sub .., nullary_bufs_sub .., unary_bufs_sub ..,
    binary_bufs_sub .., binary_bufs_sub .., unary_bufs_sub .., nullary_bufs_sub ..,
    unary_bufs_sub .., unary_bufs_sub .., ternary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., binary_bufs_sub ..⟩

-- the column sums, the padding and the index grids are kept closed: the equation below never looks inside them
-- (the contraction is a field of the float instance, closed as it stands)
attribute [local irreducible] Host.reduceAdd pad iotaInDim in
set_option maxRecDepth 8192 in
/-- What the last buffer holds after the line, from any contents: each operation's value read at its own result buffer,
    any other buffer left as it was, the moves between a buffer's type and a value's type the identity at these literal
    buffers; what remains is `refOut` with its parts written out. -/
theorem out_eq (V : Valuation τ sig (Elt F)) :
    after ops V (main_v16 : DevRef τ sig) = RefTerm.refOut (V (main_arg0 : DevRef τ sig)) := by
  after_results_simp
  rfl

/-- No operation writes the argument's buffer. -/
theorem arg0_eq (V : Valuation τ sig (Elt F)) :
    after ops V (main_arg0 : DevRef τ sig) = V (main_arg0 : DevRef τ sig) := by
  after_results_simp

/-- On the device, for any float values, from any memory with zero counters: every weakly fair execution of the entry
    function terminates with the result buffer at `refOut` of the argument's launch contents and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16) = RefTerm.refOut (m ((c.tc : Thread nD τ).loc main_arg0))
      ∧ r.2.mem ((c.tc : Thread nD τ).loc main_arg0) = m ((c.tc : Thread nD τ).loc main_arg0) :=
  (θ_run defs _ _).mono (fun _ h c => ⟨(h c main_v16).trans (out_eq _), (h c main_arg0).trans (arg0_eq _)⟩)
    (run_seq scopedRefs_eq scopedSems_eq defs main (fun _ => ops) main_eq (fun _ => ops_sub) m ρ)

end Cert.ReferenceIdeal.RefRun

end
-- ==== Proof.LibFinite.lean ====
/-
  A finiteness precondition, read at an entry.

  `jnp.all(jnp.abs(a) < inf)` is printed as the reduction by `and` (into a result of one index) of the comparison of
  `|a|` with the broadcast word `0x7F800000` of `+∞`. On the extended reals `|a i| < ⊤` says exactly that `a i` is a
  real number: `|⊤| = |⊥| = ⊤`.
-/
import Idealize.ShloMosaic.PureOps.Ideal
import Idealize.ShloMosaic.PureOps.Ideal.Laws
import Idealize.ShloMosaic.Lib.ReduceAll
import Idealize.ShloMosaic.Lib.ValueIdx

noncomputable section

namespace Cert.LibFinite

open Idealize.ShloMosaic

instance : Subsingleton (⟨0, ![]⟩ : Shape).Idx := ⟨fun a b => funext fun d => d.elim0⟩

/-- An extended real whose absolute value compares below the word of `+∞` is a real number. -/
theorem real_of_abs_lt_inf (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  induction x using EReal.rec with
  | bot =>
    exfalso
    have h' : Ideal.cmp .olt (max (⊥ : EReal) (-⊥)) (Ideal.ofBits .f32 0x7F800000#32) = 1#1 := h
    revert h'; simp [Ideal.cmp, Ideal.ofBits, Ideal.ieee]
  | coe r => exact ⟨r, rfl⟩
  | top =>
    exfalso
    have h' : Ideal.cmp .olt (max (⊤ : EReal) (-⊤)) (Ideal.ofBits .f32 0x7F800000#32) = 1#1 := h
    revert h'; simp [Ideal.cmp, Ideal.ofBits, Ideal.ieee]

/-- `jnp.all(|a| < inf)`, as printed, gives a real number at every entry of `a`. -/
theorem real_of_all {S : Shape} {axes : List (Fin S.rank)} (a : FVec Ideal S .f32)
    (hb : (⟨0, ![]⟩ : Shape).BroadcastsInDim S (![] : Fin 0 → Fin S.rank))
    (hr : S.ReducesTo axes (⟨0, ![]⟩ : Shape)) (hu : 0 < (⟨0, ![]⟩ : Shape).numel)
    (init : (⟨0, ![]⟩ : Shape).Idx → BitVec 1)
    (e : Host.reduce IntOp.andi
        (cmpf .olt (Host.absf a) (broadcastInDim S ![] hb (constant (F := Ideal) (⟨0, ![]⟩ : Shape) .f32 0x7F800000#32)))
        init hr hu ValueIdx.ix0 = 1#1)
    (i : S.Idx) : ∃ r : ℝ, a i = (r : EReal) :=
  real_of_abs_lt_inf (a i) (Host.reduce_andi_all _ init hr hu ValueIdx.ix0 e i)

end Cert.LibFinite

end
-- ==== Proof.RefValue.lean ====
/-
  The reference's result at the ideal instance, entry by entry, for an input whose entries are all real numbers.

  Write r n i for the entries of the 16384 × 768 matrix of rows. The Gram matrix divided by the row count has entry
  (i, j) equal to g = (Σ_n r n i · r n j) / 16384; the column means of the squares give a vector m with m i a real number;
  laid on the diagonal of the zero matrix it gives d (i, j) = m i when i = j and 0 otherwise. The result is
  ½·(g − d) + ½·(d − 1). Over the reals the diagonal term cancels, ½·(g − d) + ½·(d − 1) = ½·g − ½, whatever d is:
  all that is used of d is that it is a real number (at ±∞ the cancellation would fail).
-/
import proofs.«140051_j67310727463545_1_alg».proof.Proof.RefTerm
import Idealize.ShloMosaic.Lib.ValueIdx
import Idealize.ShloMosaic.Lib.Pipeline.Value
import Idealize.ShloMosaic.PureOps.Ideal.Laws
import Idealize.ShloMosaic.Lib.IdealHost
import Idealize.ShloMosaic.Lib.KernelVsHost
import Idealize.ShloMosaic.Lib.StableHlo.Predicate

noncomputable section

open scoped BigOperators

namespace Cert.ReferenceIdeal.RefValue

open Cert.ReferenceIdeal Cert.ReferenceIdeal.Gen Idealize.ShloMosaic Idealize.ShloMosaic.ValueIdx

/-! ## The literals as real numbers -/

/-- The pattern of 16384.0 = 2¹⁴ denotes the real 16384. -/
theorem ofBits_16384 : Ideal.ofBits .f32 0x46800000#32 = ((16384 : ℝ) : EReal) := by
  simp [Ideal.ofBits, Ideal.ieee, -EReal.coe_mul]; norm_num

/-- The pattern of 0.5 = 2⁻¹ denotes the real one half. -/
theorem ofBits_half : Ideal.ofBits .f32 0x3F000000#32 = ((1 / 2 : ℝ) : EReal) := by
  simp [Ideal.ofBits, Ideal.ieee, -EReal.coe_mul]; norm_num

/-- The pattern of 1.0 denotes the real one. -/
theorem ofBits_one : Ideal.ofBits .f32 0x3F800000#32 = ((1 : ℝ) : EReal) := by
  rw [Ideal.ofBits_one_f32]; rfl

/-- The zero pattern denotes the real zero. -/
theorem ofBits_zero : Ideal.ofBits .f32 0x00000000#32 = ((0 : ℝ) : EReal) := by
  rw [Ideal.ofBits_zero_f32]; rfl

/-- A literal spread over the matrix reads the literal's value at every entry. -/
theorem splat_apply (w : BitVec 32) (k : S768x768.Idx) : RefTerm.splat (F := Ideal) w k = Ideal.ofBits .f32 w := by
  unfold RefTerm.splat
  rw [broadcastInDim_scalar_apply]
  rfl

/-- The coercion of the reals into the extended reals passes through a finite sum. -/
theorem coe_sum {ι : Type*} (s : Finset ι) (f : ι → ℝ) : ((∑ n ∈ s, f n : ℝ) : EReal) = ∑ n ∈ s, ((f n : ℝ) : EReal) := by
  classical
  induction s using Finset.induction_on with
  | empty => simp
  | insert a s ha ih => rw [Finset.sum_insert ha, Finset.sum_insert ha, EReal.coe_add, ih]

/-- Dividing an extended real that is a real number by 16384. -/
theorem div_16384 (a : ℝ) : Ideal.div ((a : ℝ) : EReal) (Ideal.ofBits .f32 0x46800000#32) = ((a / 16384 : ℝ) : EReal) := by
  rw [ofBits_16384, Ideal.div_coe (by norm_num : (16384 : ℝ) ≠ 0), ← EReal.coe_mul]
  congr 1; ring

/-! ## The product of the rows' transpose with the rows, at an entry -/

theorem lhs_dot_S16384x768_S16384x768_S768x768_0_0_1_1_n_n_0 (j : S768x768.Idx) (k : dot_S16384x768_S16384x768_S768x768_0_0_1_1_n_n.contr.Idx) :
    (dot_S16384x768_S16384x768_S768x768_0_0_1_1_n_n.lhsIdx j k 0).val = (k ⟨0, by decide⟩).val :=
  DotDims.lhsIdx_val_of_single _ rfl j k

theorem lhs_dot_S16384x768_S16384x768_S768x768_0_0_1_1_n_n_1 (j : S768x768.Idx) (k : dot_S16384x768_S16384x768_S768x768_0_0_1_1_n_n.contr.Idx) :
    (dot_S16384x768_S16384x768_S768x768_0_0_1_1_n_n.lhsIdx j k 1).val = (j 0).val := by
  unfold DotDims.lhsIdx
  rw [dif_neg (show ¬(1 : Fin S16384x768.rank) ∈ dot_S16384x768_S16384x768_S768x768_0_0_1_1_n_n.lhsBatch by decide),
    dif_pos (show (1 : Fin S16384x768.rank) ∈ dot_S16384x768_S16384x768_S768x768_0_0_1_1_n_n.lhsNonContracting by decide)]
  rfl

theorem rhs_dot_S16384x768_S16384x768_S768x768_0_0_1_1_n_n_0 (j : S768x768.Idx) (k : dot_S16384x768_S16384x768_S768x768_0_0_1_1_n_n.contr.Idx) :
    (dot_S16384x768_S16384x768_S768x768_0_0_1_1_n_n.rhsIdx j k 0).val = (k ⟨0, by decide⟩).val :=
  DotDims.rhsIdx_val_of_single _ rfl j k

theorem rhs_dot_S16384x768_S16384x768_S768x768_0_0_1_1_n_n_1 (j : S768x768.Idx) (k : dot_S16384x768_S16384x768_S768x768_0_0_1_1_n_n.contr.Idx) :
    (dot_S16384x768_S16384x768_S768x768_0_0_1_1_n_n.rhsIdx j k 1).val = (j 1).val := by
  unfold DotDims.rhsIdx
  rw [dif_neg (show ¬(1 : Fin S16384x768.rank) ∈ dot_S16384x768_S16384x768_S768x768_0_0_1_1_n_n.rhsBatch by decide),
    dif_pos (show (1 : Fin S16384x768.rank) ∈ dot_S16384x768_S16384x768_S768x768_0_0_1_1_n_n.rhsNonContracting by decide)]
  rfl

/-- Entry (i, j) of the product contracting the row axis of both operands: the sum over the rows of the products of the
    two columns' entries. -/
theorem dot_apply (xf : FVec Ideal S16384x768 .f32) (i j : Fin 768) :
    Host.dotGeneral dot_S16384x768_S16384x768_S768x768_0_0_1_1_n_n none xf xf (ix2 i j) = ∑ n : Fin 16384, xf (ix2 n i) * xf (ix2 n j) := by
  show FloatOps.dotGeneral _ none _ xf xf (ix2 i j) = _
  rw [Ideal.dotGeneral_apply, ← Equiv.sum_comp (contrEquiv1 dot_S16384x768_S16384x768_S768x768_0_0_1_1_n_n 16384 rfl rfl).symm]
  refine Finset.sum_congr rfl fun c _ => ?_
  have hc := contrEquiv1_symm_val dot_S16384x768_S16384x768_S768x768_0_0_1_1_n_n 16384 rfl rfl c
  have hl : dot_S16384x768_S16384x768_S768x768_0_0_1_1_n_n.lhsIdx (ix2 i j) ((contrEquiv1 _ 16384 rfl rfl).symm c) = ix2 c i := by
    funext ax; apply Fin.ext
    match ax with
    | ⟨0, _⟩ => exact (lhs_dot_S16384x768_S16384x768_S768x768_0_0_1_1_n_n_0 _ _).trans hc
    | ⟨1, _⟩ => exact lhs_dot_S16384x768_S16384x768_S768x768_0_0_1_1_n_n_1 _ _
  have hr : dot_S16384x768_S16384x768_S768x768_0_0_1_1_n_n.rhsIdx (ix2 i j) ((contrEquiv1 _ 16384 rfl rfl).symm c) = ix2 c j := by
    funext ax; apply Fin.ext
    match ax with
    | ⟨0, _⟩ => exact (rhs_dot_S16384x768_S16384x768_S768x768_0_0_1_1_n_n_0 _ _).trans hc
    | ⟨1, _⟩ => exact rhs_dot_S16384x768_S16384x768_S768x768_0_0_1_1_n_n_1 _ _
  rw [hl, hr]

/-! ## The Gram matrix over the row count, at an entry -/

/-- Entry (i, j) of the Gram matrix of real rows divided by 16384 is the real (Σ_n r n i · r n j) / 16384. -/
theorem gram_apply (xf : FVec Ideal S16384x768 .f32) (r : Fin 16384 → Fin 768 → ℝ)
    (hr : ∀ (n : Fin 16384) (i : Fin 768), xf (ix2 n i) = ((r n i : ℝ) : EReal)) (i j : Fin 768) :
    RefTerm.gram (F := Ideal) xf (ix2 i j) = (((∑ n : Fin 16384, r n i * r n j) / 16384 : ℝ) : EReal) := by
  unfold RefTerm.gram
  rw [hostDivf_apply, splat_apply, dot_apply]
  have hs : (∑ n : Fin 16384, xf (ix2 n i) * xf (ix2 n j)) = ((∑ n : Fin 16384, r n i * r n j : ℝ) : EReal) := by
    rw [coe_sum]
    exact Finset.sum_congr rfl fun n _ => by rw [hr n i, hr n j, EReal.coe_mul]
  rw [hs]
  exact div_16384 _

/-! ## The column means of the squares, at an entry -/

/-- Putting the row coordinate back in front of a column coordinate gives the matrix index (row, column). -/
theorem lift_col (h : S16384x768.Reduces [0] S768) (i : Fin 768) (n : Fin 16384) :
    h.lift (ix1 i) n = ix2 n i := by
  funext ax; apply Fin.ext
  match ax with
  | ⟨0, _⟩ => rfl
  | ⟨1, _⟩ => rfl

/-- Entry i of the column means of the squares of real rows is the real (Σ_n r n i · r n i) / 16384. -/
theorem meanSq_apply (xf : FVec Ideal S16384x768 .f32) (r : Fin 16384 → Fin 768 → ℝ)
    (hr : ∀ (n : Fin 16384) (i : Fin 768), xf (ix2 n i) = ((r n i : ℝ) : EReal)) (i : Fin 768) :
    RefTerm.meanSq (F := Ideal) xf (ix1 i) = (((∑ n : Fin 16384, r n i * r n i) / 16384 : ℝ) : EReal) := by
  have h : S16384x768.Reduces [0] S768 := by decide
  unfold RefTerm.meanSq
  rw [hostDivf_apply, broadcastInDim_scalar_apply, constant_apply, hostReduceAdd_apply, constant_apply,
    Ideal.hostReduceAdd_single reducesTo_S16384x768_S768_d0 h, Ideal.ofBits_zero_f32, zero_add]
  have hs : (∑ n : Fin (S16384x768.size 0), mulf xf xf (h.lift (ix1 i) n))
      = ((∑ n : Fin 16384, r n i * r n i : ℝ) : EReal) := by
    rw [coe_sum]
    exact Finset.sum_congr rfl fun n _ => by rw [mulf_apply, lift_col h i n, hr n i, EReal.coe_mul]
  rw [hs]
  exact div_16384 _

/-! ## A real vector laid on the diagonal of the zero matrix has real entries -/

/-- Every entry of the matrix that carries a real vector on its diagonal and the literal zero elsewhere is a real
    number: whichever way the comparison of the row and column coordinates goes, the entry is either the vector's entry
    of that row or zero. -/
theorem diagOf_real (v : FVec Ideal S768 .f32) (m : Fin 768 → ℝ) (hv : ∀ i : Fin 768, v (ix1 i) = ((m i : ℝ) : EReal))
    (i j : Fin 768) : ∃ d : ℝ, RefTerm.diagOf (F := Ideal) v (ix2 i j) = ((d : ℝ) : EReal) := by
  unfold RefTerm.diagOf
  rw [select_apply]
  rcases BitVec.eq_zero_or_eq_one
    (cmpi .eq (addi (iotaInDim S768x768 32 0) (broadcastInDim S768x768 ![] bcast_S_S768x768 (constantI S_ 32 0#32)))
      (iotaInDim S768x768 32 1) (ix2 i j)) with h0 | h1
  · rw [h0, select_zero, splat_apply]
    exact ⟨0, ofBits_zero⟩
  · rw [h1, select_one]
    refine ⟨m i, ?_⟩
    have e2 : ix2 i j = StableHlo.Predicate.ij i j := by
      funext a
      match a with
      | ⟨0, _⟩ => rfl
      | ⟨1, _⟩ => rfl
    have e1 : Shape.Idx.ofFin i = ix1 i := by
      funext a
      match a with
      | ⟨0, _⟩ => rfl
    rw [e2, StableHlo.Predicate.bcast_rows, e1,
      pad_apply_of_inside ![0] ![0] ![0] v (constant (F := Ideal) S_ .f32 0x00000000#32) pads_S768_S768_000 h_S_
        (ix1 i) (ix1 i) (fun a => by
          match a with
          | ⟨0, _⟩ => show i.val = 0 + i.val * (0 + 1); omega)]
    exact hv i

/-! ## The result at an entry -/

/-- Over the reals the diagonal term cancels from the mix. -/
theorem mix_real (g d : ℝ) : (1 / 2 : ℝ) * (g - d) + (1 / 2 : ℝ) * (d - 1) = (1 / 2 : ℝ) * g - 1 / 2 := by ring

/-- Entry (i, j) of the reference's result, for an input whose rows are real: ½ · (Σ_n r n i · r n j) / 16384 − ½. -/
theorem refOut_real (x : FVec Ideal S8x2048x768 .f32) (r : Fin 16384 → Fin 768 → ℝ)
    (hr : ∀ (n : Fin 16384) (i : Fin 768), RefTerm.rows (F := Ideal) x (ix2 n i) = ((r n i : ℝ) : EReal)) (i j : Fin 768) :
    RefTerm.refOut (F := Ideal) x (ix2 i j)
      = (((1 / 2 : ℝ) * ((∑ n : Fin 16384, r n i * r n j) / 16384) - 1 / 2 : ℝ) : EReal) := by
  obtain ⟨d, hd⟩ := diagOf_real (RefTerm.meanSq (F := Ideal) (RefTerm.rows (F := Ideal) x))
    (fun i => (∑ n : Fin 16384, r n i * r n i) / 16384) (meanSq_apply _ r hr) i j
  unfold RefTerm.refOut
  rw [addf_apply, mulf_apply, mulf_apply, subf_apply, subf_apply, splat_apply, splat_apply, hd, gram_apply _ r hr,
    ofBits_half, ofBits_one, ← EReal.coe_sub, ← EReal.coe_sub, ← EReal.coe_mul, ← EReal.coe_mul, ← EReal.coe_add, mix_real]

end Cert.ReferenceIdeal.RefValue

end
-- ==== Proof.KI.PayIdeal.lean ====
/-
  The Gram kernel's three stored values read at an index, at the ideal instance (a float an extended real, every
  operation exact, a change of float format the identity): the reset value is zero; the accumulated value is the old
  accumulator plus the product of the transposed left block with the right block, a sum over the 2048 rows of the
  blocks; the result is one half of the accumulator scaled by 2⁻¹⁴, less one half.
-/
import proofs.«140051_j67310727463545_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Gram

open Cert.KernelIdeal Cert.KernelIdeal.Gen Idealize.ShloMosaic Idealize.ShloMosaic.ValueIdx

/-! ## The two literals as real numbers -/

/-- The single-precision pattern with biased exponent 126 and empty fraction is 2⁻¹ = 1/2. -/
theorem lit_half : Ideal.ofBits .f32 0x3F000000#32 = ((1 / 2 : ℝ) : EReal) := by
  simp [Ideal.ofBits, Ideal.ieee, -EReal.coe_mul]; norm_num

/-- The single-precision pattern with biased exponent 113 and empty fraction is 2⁻¹⁴ = 1/16384. -/
theorem lit_inv_rows : Ideal.ofBits .f32 0x38800000#32 = ((1 / 16384 : ℝ) : EReal) := by
  simp [Ideal.ofBits, Ideal.ieee, -EReal.coe_mul]; norm_num

/-! ## The block product at an entry

The product contracts axis 1 of its 384 × 2048 left operand with axis 0 of its 2048 × 768 right operand: at the output
entry (p, q) and the contraction position k the left operand is read at (p, k) and the right one at (k, q). -/

theorem lhs_dot_S384x2048_S2048x768_S384x768_1_0_0_1_n_n_0 (j : S384x768.Idx) (k : dot_S384x2048_S2048x768_S384x768_1_0_0_1_n_n.contr.Idx) :
    (dot_S384x2048_S2048x768_S384x768_1_0_0_1_n_n.lhsIdx j k 0).val = (j 0).val := by
  unfold DotDims.lhsIdx
  rw [dif_neg (show ¬(0 : Fin S384x2048.rank) ∈ dot_S384x2048_S2048x768_S384x768_1_0_0_1_n_n.lhsBatch by decide),
    dif_pos (show (0 : Fin S384x2048.rank) ∈ dot_S384x2048_S2048x768_S384x768_1_0_0_1_n_n.lhsNonContracting by decide)]
  rfl

theorem lhs_dot_S384x2048_S2048x768_S384x768_1_0_0_1_n_n_1 (j : S384x768.Idx) (k : dot_S384x2048_S2048x768_S384x768_1_0_0_1_n_n.contr.Idx) :
    (dot_S384x2048_S2048x768_S384x768_1_0_0_1_n_n.lhsIdx j k 1).val = (k ⟨0, by decide⟩).val :=
  DotDims.lhsIdx_val_of_single _ rfl j k

theorem rhs_dot_S384x2048_S2048x768_S384x768_1_0_0_1_n_n_0 (j : S384x768.Idx) (k : dot_S384x2048_S2048x768_S384x768_1_0_0_1_n_n.contr.Idx) :
    (dot_S384x2048_S2048x768_S384x768_1_0_0_1_n_n.rhsIdx j k 0).val = (k ⟨0, by decide⟩).val :=
  DotDims.rhsIdx_val_of_single _ rfl j k

theorem rhs_dot_S384x2048_S2048x768_S384x768_1_0_0_1_n_n_1 (j : S384x768.Idx) (k : dot_S384x2048_S2048x768_S384x768_1_0_0_1_n_n.contr.Idx) :
    (dot_S384x2048_S2048x768_S384x768_1_0_0_1_n_n.rhsIdx j k 1).val = (j 1).val := by
  unfold DotDims.rhsIdx
  rw [dif_neg (show ¬(1 : Fin S2048x768.rank) ∈ dot_S384x2048_S2048x768_S384x768_1_0_0_1_n_n.rhsBatch by decide),
    dif_pos (show (1 : Fin S2048x768.rank) ∈ dot_S384x2048_S2048x768_S384x768_1_0_0_1_n_n.rhsNonContracting by decide)]
  rfl

/-- Entry (p, q) of the product into the zero accumulator: the sum over k of a (p, k) · b (k, q). -/
theorem product_apply (a : FVec Ideal S384x2048 .bf16) (b : FVec Ideal S2048x768 .bf16) (p : Fin 384) (q : Fin 768) :
    matmul dot_S384x2048_S2048x768_S384x768_1_0_0_1_n_n none a b (constant (F := Ideal) S384x768 .f32 0x00000000#32) (ix2 p q)
      = ∑ k : Fin 2048, a (ix2 p k) * b (ix2 k q) := by
  show FloatOps.matmul _ none a b (constant (F := Ideal) S384x768 .f32 0x00000000#32) (ix2 p q) = _
  rw [Ideal.matmul_constant_zero_apply, ← Equiv.sum_comp (contrEquiv1 dot_S384x2048_S2048x768_S384x768_1_0_0_1_n_n 2048 rfl rfl).symm]
  refine Finset.sum_congr rfl fun c _ => ?_
  have hc := contrEquiv1_symm_val dot_S384x2048_S2048x768_S384x768_1_0_0_1_n_n 2048 rfl rfl c
  have hl : dot_S384x2048_S2048x768_S384x768_1_0_0_1_n_n.lhsIdx (ix2 p q) ((contrEquiv1 _ 2048 rfl rfl).symm c) = ix2 p c := by
    funext ax; apply Fin.ext
    match ax with
    | ⟨0, _⟩ => exact lhs_dot_S384x2048_S2048x768_S384x768_1_0_0_1_n_n_0 _ _
    | ⟨1, _⟩ => exact (lhs_dot_S384x2048_S2048x768_S384x768_1_0_0_1_n_n_1 _ _).trans hc
  have hr : dot_S384x2048_S2048x768_S384x768_1_0_0_1_n_n.rhsIdx (ix2 p q) ((contrEquiv1 _ 2048 rfl rfl).symm c) = ix2 c q := by
    funext ax; apply Fin.ext
    match ax with
    | ⟨0, _⟩ => exact (rhs_dot_S384x2048_S2048x768_S384x768_1_0_0_1_n_n_0 _ _).trans hc
    | ⟨1, _⟩ => exact rhs_dot_S384x2048_S2048x768_S384x768_1_0_0_1_n_n_1 _ _
  rw [hl, hr]

/-- The left block transposed, at (p, k), is the left block at (k, p). -/
theorem transposed_apply (a : FVec Ideal S2048x384 .bf16) (p : Fin 384) (k : Fin 2048) :
    transpose S384x2048 [1, 0] a transposes_S2048x384_p1_0_S384x2048 (ix2 p k) = a (ix2 k p) := by
  refine transpose_apply _ _ _ _ _ fun b => ?_
  match b with
  | ⟨0, _⟩ => rfl
  | ⟨1, _⟩ => rfl

/-! ## The three stored values -/

theorem pay1_apply (p : Fin 384) (q : Fin 768) : k0_pay1 (F := Ideal) (ix2 p q) = (0 : EReal) := by
  unfold k0_pay1
  rw [shapeCast_self]
  exact Ideal.ofBits_zero_f32

theorem pay2_apply (x0 : Vec Ideal S2048x384 .f32) (x1 : Vec Ideal S2048x768 .f32) (s : Vec Ideal S384x768 .f32)
    (p : Fin 384) (q : Fin 768) :
    k0_pay2 (F := Ideal) x0 x1 s (ix2 p q)
      = (s (ix2 p q) : EReal) + ∑ k : Fin 2048, (x0 (ix2 k p) : EReal) * (x1 (ix2 k q) : EReal) := by
  unfold k0_pay2
  rw [shapeCast_self, shapeCast_self, shapeCast_self, addf_apply, product_apply]
  refine congrArg (s (ix2 p q) + ·) (Finset.sum_congr rfl fun k _ => ?_)
  rw [transposed_apply]
  rfl

theorem pay3_apply (s : Vec Ideal S384x768 .f32) (p : Fin 384) (q : Fin 768) :
    k0_pay3 (F := Ideal) s (ix2 p q)
      = (((1 / 2 : ℝ) : EReal)) * ((s (ix2 p q) : EReal) * (((1 / 16384 : ℝ) : EReal))) - (((1 / 2 : ℝ) : EReal)) := by
  unfold k0_pay3
  rw [subf_apply, mulf_apply, mulf_apply, broadcast_apply]
  show Ideal.ofBits .f32 0x3F000000#32 * (s (ix2 p q) * Ideal.ofBits .f32 0x38800000#32) - Ideal.ofBits .f32 0x3F000000#32 = _
  rw [lit_half, lit_inv_rows]

end Cert.KernelIdeal.Gram

end
-- ==== Proof.KI.Value.lean ====
/-
  The Gram kernel's result array at the ideal instance, entry by entry.

  The row matrix has 16384 rows of 768 real entries r n i. The grid's point t = 8·a + k (a < 2, k < 8) reads rows
  2048·k … 2048·k + 2047 of it: columns 384·a … 384·a + 383 as the left block and all 768 columns as the right block.
  Within grid row a the accumulator after point 8·a + k holds, at (p, q), the partial Gram sum
  Σ_{n < 2048·(k+1)} r n (384·a + p) · r n q; the point 8·a + 7 writes rows 384·a … 384·a + 383 of the result from it,
  scaled by 2⁻¹⁴, halved, less one half. The two write-backs cover the 768 × 768 result, so entry (i, j) ends at
  ½·((Σ_n r n i · r n j)/16384) − ½.
-/
import proofs.«140051_j67310727463545_1_alg».proof.Proof.KI.Data
import proofs.«140051_j67310727463545_1_alg».proof.Proof.KI.PayIdeal
import Idealize.ShloMosaic.Lib.Pipeline.Value
import Idealize.ShloMosaic.Lib.ValueIdx
import Mathlib.Data.EReal.Operations
import Mathlib.Algebra.BigOperators.Fin

noncomputable section

open scoped BigOperators

namespace Cert.KernelIdeal.Gram

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-! ## Which block each window names at a point -/

/-- The three index maps over the grid: at point t the left block is block (t mod 8, t div 8) of the row matrix, the right
    block its block (t mod 8, 0), the result block is block (t div 8, 0) of the result. -/
theorem block_indices : ∀ t : Fin cfg0.N, win0_0.index t (0 : Fin 2) = t.val % 8 ∧ win0_0.index t (1 : Fin 2) = t.val / 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, win0_0.index t (0 : Fin 2) = t.val % 8 ∧ win0_0.index t (1 : Fin 2) = t.val / 8
    ∧ win0_1.index t (0 : Fin 2) = t.val % 8 ∧ win0_1.index t (1 : Fin 2) = 0
    ∧ win0_2.index t (0 : Fin 2) = t.val / 8 ∧ win0_2.index t (1 : Fin 2) = 0)

/-- Entry (k, p) of the left block at point t is entry (2048·(t mod 8) + k, 384·(t div 8) + p) of the row matrix. -/
theorem lblk_apply (c : Dev nD) (t : Fin cfg0.N) (k : Fin 2048) (p : Fin 384) (n : Fin 16384) (i : Fin 768)
    (hn : n.val = 2048 * (t.val % 8) + k.val) (hi : i.val = 384 * (t.val / 8) + p.val) :
    (lblk m c t : S2048x384.Idx → EReal) (ix2 k p) = (V m c main_v0 : S16384x768.Idx → EReal) (ix2 n i) := by
  obtain ⟨e0, e1, -, -, -, -⟩ := block_indices t
  unfold lblk iblk
  rw [View.read_apply]
  show (V m c main_v0 : S16384x768.Idx → EReal) _ = (V m c main_v0 : S16384x768.Idx → EReal) _
  congr 1
  funext a
  apply Fin.ext
  match a with
  | ⟨0, _⟩ => show win0_0.index t (0 : Fin 2) * 2048 + 1 * k.val = n.val; rw [e0, hn]; omega
  | ⟨1, _⟩ => show win0_0.index t (1 : Fin 2) * 384 + 1 * p.val = i.val; rw [e1, hi]; omega

/-- Entry (k, q) of the right block at point t is entry (2048·(t mod 8) + k, q) of the row matrix. -/
theorem rblk_apply (c : Dev nD) (t : Fin cfg0.N) (k : Fin 2048) (q : Fin 768) (n : Fin 16384)
    (hn : n.val = 2048 * (t.val % 8) + k.val) :
    (rblk m c t : S2048x768.Idx → EReal) (ix2 k q) = (V m c main_v0 : S16384x768.Idx → EReal) (ix2 n q) := by
  obtain ⟨-, -, e2, e3, -, -⟩ := block_indices t
  unfold rblk iblk
  rw [View.read_apply]
  show (V m c main_v0 : S16384x768.Idx → EReal) _ = (V m c main_v0 : S16384x768.Idx → EReal) _
  congr 1
  funext a
  apply Fin.ext
  match a with
  | ⟨0, _⟩ => show win0_1.index t (0 : Fin 2) * 2048 + 1 * k.val = n.val; rw [e2, hn]; omega
  | ⟨1, _⟩ => show win0_1.index t (1 : Fin 2) * 768 + 1 * q.val = q.val; rw [e3]; omega

/-! ## Partial Gram sums -/

/-- The product of entries i and j of row n of the matrix, zero past its last row. -/
def rowProd (r : Fin 16384 → Fin 768 → ℝ) (i j : Fin 768) (n : ℕ) : ℝ :=
  if h : n < 16384 then r ⟨n, h⟩ i * r ⟨n, h⟩ j else 0

/-- The Gram sum of columns i and j over the first N rows. -/
def gramUpTo (r : Fin 16384 → Fin 768 → ℝ) (i j : Fin 768) (N : ℕ) : ℝ := ∑ n ∈ Finset.range N, rowProd r i j n

/-- One more block of 2048 rows: the sum over the first 2048·(a+1) rows is the sum over the first 2048·a and the block's. -/
theorem gramUpTo_block (r : Fin 16384 → Fin 768 → ℝ) (i j : Fin 768) (a : ℕ) :
    gramUpTo r i j (2048 * (a + 1)) = gramUpTo r i j (2048 * a) + ∑ k ∈ Finset.range 2048, rowProd r i j (2048 * a + k) := by
  unfold gramUpTo
  rw [Nat.mul_succ, Finset.sum_range_add]

theorem gramUpTo_zero (r : Fin 16384 → Fin 768 → ℝ) (i j : Fin 768) : gramUpTo r i j (2048 * 0) = 0 := by
  unfold gramUpTo
  rw [Nat.mul_zero, Finset.sum_range_zero]

/-- Over all 16384 rows it is the Gram sum of the two columns. -/
theorem gramUpTo_all (r : Fin 16384 → Fin 768 → ℝ) (i j : Fin 768) :
    gramUpTo r i j 16384 = ∑ n : Fin 16384, r n i * r n j := by
  unfold gramUpTo
  rw [Finset.sum_range]
  refine Finset.sum_congr rfl fun n _ => ?_
  unfold rowProd
  rw [dif_pos n.isLt]

/-- A finite sum of reals read in the extended reals is the sum of its terms read there. -/
theorem coe_sum_real {ι : Type} (s : Finset ι) (f : ι → ℝ) : ((∑ x ∈ s, f x : ℝ) : EReal) = ∑ x ∈ s, (f x : EReal) := by
  classical
  induction s using Finset.induction_on with
  | empty => rw [Finset.sum_empty, Finset.sum_empty]; rfl
  | insert a s ha ih => rw [Finset.sum_insert ha, Finset.sum_insert ha, EReal.coe_add, ih]

section ClosedForm

variable (r : Fin 16384 → Fin 768 → ℝ)

/-- The point's product at (p, q): the block's 2048 rows' products of columns 384·(t div 8) + p and q. -/
theorem blk_sum (c : Dev nD)
    (hr : ∀ (n : Fin 16384) (i : Fin 768), (V m c main_v0 : S16384x768.Idx → EReal) (ix2 n i) = ((r n i : ℝ) : EReal))
    (t : Fin cfg0.N) (p : Fin 384) (q i : Fin 768) (hi : i.val = 384 * (t.val / 8) + p.val) :
    ∑ k : Fin 2048, ((lblk m c t : S2048x384.Idx → EReal) (ix2 k p)) * ((rblk m c t : S2048x768.Idx → EReal) (ix2 k q))
      = ((∑ k ∈ Finset.range 2048, rowProd r i q (2048 * (t.val % 8) + k) : ℝ) : EReal) := by
  have ht : t.val < 16 := t.isLt
  rw [Finset.sum_range, coe_sum_real]
  refine Finset.sum_congr rfl fun k _ => ?_
  have hk : 2048 * (t.val % 8) + k.val < 16384 := by have := k.isLt; omega
  rw [lblk_apply m c t k p ⟨_, hk⟩ i rfl hi, rblk_apply m c t k q ⟨_, hk⟩ rfl, hr, hr, ← EReal.coe_mul]
  unfold rowProd
  rw [dif_pos hk]

/-- THE ACCUMULATOR IN CLOSED FORM: after point n it holds at (p, q) the Gram sum of columns 384·(n div 8) + p and q over the
    first 2048·(n mod 8 + 1) rows. By induction on the point: a row of the grid starts from zero, every other point adds
    its block's rows to what the point before left. -/
theorem accAt_apply (c : Dev nD)
    (hr : ∀ (n : Fin 16384) (i : Fin 768), (V m c main_v0 : S16384x768.Idx → EReal) (ix2 n i) = ((r n i : ℝ) : EReal))
    (n : ℕ) : ∀ (hn : n < cfg0.N) (p : Fin 384) (q i : Fin 768), i.val = 384 * (n / 8) + p.val →
      (accAt m c n hn : S384x768.Idx → EReal) (ix2 p q) = ((gramUpTo r i q (2048 * (n % 8 + 1)) : ℝ) : EReal) := by
  induction n with
  | zero =>
    intro hn p q i hi
    have h0 := accAt_reset m c ⟨0, hn⟩ rfl
    rw [show accAt m c 0 hn = _ from h0, pay2_apply, pay1_apply, blk_sum m r c hr ⟨0, hn⟩ p q i hi, zero_add]
    show _ = ((gramUpTo r i q (2048 * (0 + 1)) : ℝ) : EReal)
    rw [gramUpTo_block, gramUpTo_zero, zero_add]
    rfl
  | succ n ih =>
    intro hn p q i hi
    have hn16 : n + 1 < 16 := hn
    by_cases h8 : (n + 1) % 8 = 0
    · have h0 := accAt_reset m c ⟨n + 1, hn⟩ h8
      rw [show accAt m c (n + 1) hn = _ from h0, pay2_apply, pay1_apply, blk_sum m r c hr ⟨n + 1, hn⟩ p q i hi, zero_add]
      show ((∑ k ∈ Finset.range 2048, rowProd r i q (2048 * ((n + 1) % 8) + k) : ℝ) : EReal) = _
      rw [h8, gramUpTo_block, gramUpTo_zero, zero_add]
    · have h1 := accAt_step m c ⟨n + 1, hn⟩ h8
      have hi' : i.val = 384 * (n / 8) + p.val := by omega
      have hprev := ih (Nat.lt_of_succ_lt hn) p q i hi'
      have ha : n % 8 + 1 = (n + 1) % 8 := by omega
      rw [show accAt m c (n + 1) hn = _ from h1, pay2_apply, blk_sum m r c hr ⟨n + 1, hn⟩ p q i hi]
      show (accAt m c n _ : S384x768.Idx → EReal) (ix2 p q) + ((∑ k ∈ Finset.range 2048, rowProd r i q (2048 * ((n + 1) % 8) + k) : ℝ) : EReal) = _
      rw [hprev, ha, ← EReal.coe_add, ← gramUpTo_block]

/-! ## The result array -/

/-- What entry (i, j) of the result ends at: half the Gram sum of columns i and j over 16384, less one half. -/
def gramEntry (i j : Fin 768) : ℝ := (1 / 2 : ℝ) * ((∑ n : Fin 16384, r n i * r n j) / 16384) - 1 / 2

/-- The result array in closed form. -/
def gramArr : S768x768.Idx → EReal := fun idx => ((gramEntry r (idx 0) (idx 1) : ℝ) : EReal)

/-- What a point that ends a row of the grid leaves for the result at y: the closed form at the entry whose row is
    384·(t div 8) + y₀ and whose column is y₁ (there the accumulator has seen all 8 · 2048 rows). -/
theorem outAt_apply (c : Dev nD)
    (hr : ∀ (n : Fin 16384) (i : Fin 768), (V m c main_v0 : S16384x768.Idx → EReal) (ix2 n i) = ((r n i : ℝ) : EReal))
    (t : Fin cfg0.N) (h7 : t.val % 8 = 7) (y : S384x768.Idx) (i j : Fin 768)
    (h0 : i.val = 384 * (t.val / 8) + (y 0).val) (h1 : j.val = (y 1).val) :
    (outAt m c t : S384x768.Idx → EReal) y = ((gramEntry r i j : ℝ) : EReal) := by
  obtain ⟨p, q, rfl⟩ : ∃ (p : Fin 384) (q : Fin 768), y = ix2 p q := ⟨y 0, y 1, eq_ix2 y⟩
  obtain rfl : j = q := Fin.ext h1
  unfold outAt
  rw [pay3_apply, accAt_apply m r c hr t.val t.isLt p j i h0, h7, show 2048 * (7 + 1) = 16384 from rfl,
    gramUpTo_all, ← EReal.coe_mul, ← EReal.coe_mul, ← EReal.coe_sub]
  unfold gramEntry
  congr 1
  ring

/-- WHAT A WRITE-BACK MOVES is its block of the closed form. -/
theorem flushed_eq (c : Dev nD)
    (hr : ∀ (n : Fin 16384) (i : Fin 768), (V m c main_v0 : S16384x768.Idx → EReal) (ix2 n i) = ((r n i : ℝ) : EReal))
    (t : Fin cfg0.N) (hf : (cfg0.win 2).flush t = true) :
    (dats (F := Ideal) m 0 c).flushed 2 t = ((cfg0.win 2).blk t).view.read (Elt Ideal) (gramArr r) := by
  have h7 : t.val % 8 = 7 := (flush0_2 t).mp hf
  obtain ⟨-, -, -, -, e4, e5⟩ := block_indices t
  show (cfg0.win 2).cut (grid0.coords t) ((dats (F := Ideal) m 0 c).after 2 t) = _
  rw [after_2]
  funext y
  show (outAt m c t : S384x768.Idx → EReal) y
    = ((gramEntry r (((cfg0.win 2).blk t).view.emb y 0) (((cfg0.win 2).blk t).view.emb y 1) : ℝ) : EReal)
  refine outAt_apply m r c hr t h7 y _ _ ?_ ?_
  · show win0_2.index t (0 : Fin 2) * 384 + 1 * (y 0).val = 384 * (t.val / 8) + (y 0).val
    rw [e4]; omega
  · show win0_2.index t (1 : Fin 2) * 768 + 1 * (y 1).val = (y 1).val
    rw [e5]; omega

/-- An entry of the result is in point t's block iff each coordinate is in the block's range on its axis. -/
theorem mem_blk (t : Fin cfg0.N) (i : S768x768.Idx) :
    i ∈ ((cfg0.win 2).blk t).view.set ↔ ∀ a : Fin 2, win0_2.index t a * S384x768.size a ≤ (i a).val
      ∧ (i a).val < win0_2.index t a * S384x768.size a + S384x768.size a := by
  show i ∈ ((View.whole main_v1).slice (win0_2.rect t)).set ↔ _
  rw [View.set_slice_whole, Rect.mem_set_unit]
  exact Iff.rfl

/-- Every entry (i, j) of the result is in the block the last point of grid row i div 384 writes back. -/
theorem cover (i : S768x768.Idx) :
    ∃ t : Fin cfg0.N, (cfg0.win 2).flush t = true ∧ i ∈ ((cfg0.win 2).blk t).view.set := by
  have hi0 : (i 0).val < 768 := (i 0).isLt
  have hi1 : (i 1).val < 768 := (i 1).isLt
  obtain ⟨t, ht⟩ : ∃ t : Fin cfg0.N, t.val = 8 * ((i 0).val / 384) + 7 :=
    ⟨⟨8 * ((i 0).val / 384) + 7, show _ < 16 by omega⟩, rfl⟩
  obtain ⟨-, -, -, -, e4, e5⟩ := block_indices t
  refine ⟨t, (flush0_2 t).mpr (by omega), ?_⟩
  rw [mem_blk]
  intro a
  match a with
  | ⟨0, _⟩ =>
    show win0_2.index t (0 : Fin 2) * 384 ≤ (i 0).val ∧ (i 0).val < win0_2.index t (0 : Fin 2) * 384 + 384
    rw [e4]; omega
  | ⟨1, _⟩ =>
    show win0_2.index t (1 : Fin 2) * 768 ≤ (i 1).val ∧ (i 1).val < win0_2.index t (1 : Fin 2) * 768 + 768
    rw [e5]; omega

/-- So the result array ends holding the closed form. -/
theorem final_arr (c : Dev nD)
    (hr : ∀ (n : Fin 16384) (i : Fin 768), (V m c main_v0 : S16384x768.Idx → EReal) (ix2 n i) = ((r n i : ℝ) : EReal)) :
    (dats (F := Ideal) m 0 c).arrAt 2 cfg0.N = gramArr r :=
  (dats (F := Ideal) m 0 c).arrAt_eq_of_cover 2 (gramArr r) (flushed_eq m r c hr) cover

end ClosedForm

/-- THE RESULT, ENTRY BY ENTRY: for a row matrix of real entries r, entry (i, j) of the result array after the run is
    ½·((Σ_n r n i · r n j)/16384) − ½. -/
theorem final_real (c : Dev nD) (r : Fin 16384 → Fin 768 → ℝ)
    (hr : ∀ (n : Fin 16384) (i : Fin 768), (V m c main_v0 : S16384x768.Idx → EReal) (ix2 n i) = ((r n i : ℝ) : EReal))
    (i j : Fin 768) :
    ((dats (F := Ideal) m 0 c).arrAt 2 cfg0.N : S768x768.Idx → EReal) (ix2 i j)
      = (((1 / 2 : ℝ) * ((∑ n : Fin 16384, r n i * r n j) / 16384) - 1 / 2 : ℝ) : EReal) := by
  rw [final_arr m r c hr]
  rfl

end Cert.KernelIdeal.Gram

end
-- ==== Proof.Bridge.lean ====
/-
  The two idealized programs compute one function.

  Under the precondition every entry of the input is a real number; so is then every entry of the row matrix, which
  holds the input's entries in row-major order. For a real row matrix r both programs' results are, at (i, j),
  ½·((Σₙ r n i · r n j)/16384) − ½: the reference's diagonal term cancels over the reals, and the kernel's
  accumulated products, scaled by 2⁻¹⁴ and halved, are that number.
-/
import proofs.«140051_j67310727463545_1_alg».proof.Defs
import proofs.«140051_j67310727463545_1_alg».proof.Proof.Gen.Pre_finite_inputs
import proofs.«140051_j67310727463545_1_alg».proof.Proof.LibFinite
import proofs.«140051_j67310727463545_1_alg».proof.Proof.RefValue
import proofs.«140051_j67310727463545_1_alg».proof.Proof.KI.Value

noncomputable section

namespace Cert.Proof.Bridge

open Idealize.ShloMosaic Idealize.ShloMosaic.TcCoe Idealize.SL.Sem Idealize.ShloMosaic.ValueIdx
open Cert.Pre_finite_inputs.Gen

/-- Under the finiteness precondition every entry of the input is a real number. -/
theorem input_real (x : FVec Ideal Cert.Pre_finite_inputs.S8x2048x768 .f32)
    (h : Cert.Pre_finite_inputs.fn (F := Ideal) x = fun _ => 1#1) (k : Cert.Pre_finite_inputs.S8x2048x768.Idx) :
    ∃ r : ℝ, x k = (r : EReal) := by
  have e := congrFun h ValueIdx.ix0
  dsimp only [Cert.Pre_finite_inputs.fn] at e
  exact Cert.LibFinite.real_of_all x _ _ _ _ e k

/-- The row matrix the kernel's region finds is the input's entries in row-major order. -/
theorem rows_eq (m : (ℓ : Loc Cert.KernelIdeal.nD Cert.KernelIdeal.τ Cert.KernelIdeal.sig) → Buf (Elt Ideal) ℓ) (c : Dev Cert.KernelIdeal.nD) :
    (Cert.KernelIdeal.Gram.V m c Cert.KernelIdeal.main_v0 : Cert.KernelIdeal.S16384x768.Idx → EReal)
      = Cert.ReferenceIdeal.RefTerm.rows (F := Ideal) (m ((c.tc : Thread Cert.KernelIdeal.nD Cert.KernelIdeal.τ).loc Cert.KernelIdeal.main_arg0)) := by
  rfl

/-- The reference's result of the input is what the kernel's result array holds after the run. -/
theorem result_eq (m : (ℓ : Loc Cert.KernelIdeal.nD Cert.KernelIdeal.τ Cert.KernelIdeal.sig) → Buf (Elt Ideal) ℓ) (c : Dev Cert.KernelIdeal.nD)
    (hfin : Cert.Pre_finite_inputs.fn (F := Ideal) (m ((c.tc : Thread Cert.KernelIdeal.nD Cert.KernelIdeal.τ).loc Cert.KernelIdeal.main_arg0)) = fun _ => 1#1) :
    (Cert.ReferenceIdeal.RefTerm.refOut (F := Ideal) (m ((c.tc : Thread Cert.KernelIdeal.nD Cert.KernelIdeal.τ).loc Cert.KernelIdeal.main_arg0))
        : Cert.KernelIdeal.S768x768.Idx → EReal)
      = (Cert.KernelIdeal.Gram.dats (F := Ideal) m 0 c).arrAt 2 Cert.KernelIdeal.cfg0.N := by
  funext k
  obtain ⟨i, j, rfl⟩ : ∃ (i : Fin 768) (j : Fin 768), k = ix2 i j := ⟨k 0, k 1, eq_ix2 k⟩
  have hx := input_real _ hfin
  choose r hr using fun (n : Fin 16384) (i : Fin 768) =>
    hx (Shape.reshapeEquiv Cert.ReferenceIdeal.Gen.shapeCasts_S8x2048x768_S16384x768 (ix2 n i))
  rw [Cert.ReferenceIdeal.RefValue.refOut_real _ r (fun n i => hr n i) i j]
  exact (Cert.KernelIdeal.Gram.final_real m c r (fun n i => by rw [rows_eq]; exact hr n i) i j).symm

end Cert.Proof.Bridge

end
-- ==== Proof.lean ====
/-
  The Gram-matrix kernel against its reference, over the extended reals.

  The kernel reads the input as 16384 rows of 768 entries, accumulates (row block)ᵀ·(row block) over eight row blocks
  for each half of the result's rows, and stores ½·(acc·2⁻¹⁴) − ½. The reference computes ½·(G − D) + ½·(D − 1) with
  G the Gram matrix divided by 16384 and D the diagonal matrix of the columns' mean squares. For finite inputs every
  entry is a real number, D cancels, and both are ½·G − ½ (Proof/Bridge.lean, from Proof/RefValue.lean and
  Proof/KI/Value.lean).

  The frames: the kernel's two operand windows read ONE array, which the launch splits between them in halves; the
  body keeps its accumulator in scratch from point to point (Proof/KI/Data.lean, Body.lean, Launch.lean, for every float
  instance; Proof/K/ holds the same text about the program printed at the word level). The reference is a straight
  line of host operations with its diagonal function unfolded at the call (Proof/RefRun.lean). Nothing was rewritten by
  the idealization, so there is nothing to preserve.
-/
import proofs.«140051_j67310727463545_1_alg».proof.Defs
import proofs.«140051_j67310727463545_1_alg».proof.Proof.Gen.Kernel
import proofs.«140051_j67310727463545_1_alg».proof.Proof.Gen.KernelIdeal
import proofs.«140051_j67310727463545_1_alg».proof.Proof.Gen.ReferenceIdeal
import proofs.«140051_j67310727463545_1_alg».proof.Proof.Gen.Pre_finite_inputs
import proofs.«140051_j67310727463545_1_alg».proof.Proof.K.Body
import proofs.«140051_j67310727463545_1_alg».proof.Proof.K.Launch
import proofs.«140051_j67310727463545_1_alg».proof.Proof.KI.Body
import proofs.«140051_j67310727463545_1_alg».proof.Proof.KI.Launch
import proofs.«140051_j67310727463545_1_alg».proof.Proof.RefRun
import proofs.«140051_j67310727463545_1_alg».proof.Proof.Bridge

noncomputable section

namespace Cert.Proof

open Idealize.ShloMosaic Idealize.SL.Sem

/-- The word-level kernel runs to the end, faults nowhere and leaves its input as it was. -/
theorem frame_k : Cert.frame_Kernel := fun m ρ _ =>
  Cert.Kernel.Gram.frame m ρ (fun c => (Cert.Kernel.Gram.body_obligation m c).loose)

/-- So does the idealized kernel. -/
theorem frame_ki : Cert.frame_KernelIdeal := fun m ρ _ =>
  Cert.KernelIdeal.Gram.frame m ρ (fun c => (Cert.KernelIdeal.Gram.body_obligation m c).loose)

/-- The reference's run, its result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both idealized programs end with the result array at ½·(Gram/16384) − ½ of the input's rows. -/
theorem algebraic : Cert.algebraic_KernelIdeal_ReferenceIdeal := by
  intro m ρ m' ρ' hpre hagree
  refine ⟨fun c => (Cert.KernelIdeal.Gram.dats (F := Ideal) m 0 c).arrAt 2 Cert.KernelIdeal.cfg0.N, ?_, ?_⟩
  · exact (θ_run Cert.KernelIdeal.defs _ _).mono (fun r h c => ⟨(h c).1 2, (h c).2⟩)
      (Cert.KernelIdeal.Gram.run_main m ρ (fun c => (Cert.KernelIdeal.Gram.body_obligation m c).loose))
  · refine (θ_run Cert.ReferenceIdeal.defs _ _).mono (fun r h c => ⟨(h c).1.trans ?_, (h c).2⟩)
      (Cert.ReferenceIdeal.RefRun.run (F := Ideal) m' ρ')
    rw [hagree c]
    exact Cert.Proof.Bridge.result_eq m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
